-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S2048x11008 : Shape := ⟨2, ![2048, 11008]⟩
abbrev S32x11008 : Shape := ⟨2, ![32, 11008]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4096x4096 .f32) (main_arg1 : IVec S2048x11008 32) (main_arg2 : FVec F S32x11008 .f32) (main_arg3 : FVec F S32x11008 .f32) (main_arg4 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32x11008 .f32 := Host.absf main_arg2
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S32x11008 .f32 := Host.absf main_arg3
  let main_cst_2 : FVec F S_ .f32 := constant S_ .f32 0x7F800000#32
  let main_v10 : FVec F S32x11008 .f32 := broadcastInDim S32x11008 ![] bcast_S_S32x11008 main_cst_2
  let main_v11 : IVec S32x11008 1 := cmpf .olt main_v9 main_v10
  let main_c_3 : IVec S_ 1 := constantI S_ 1 1#1
  let main_v12 : IVec S_ 1 := (fun x v => Host.reduce IntOp.andi x v reducesTo_S32x11008_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4096x4096 : Shape := ⟨2, ![4096, 4096]⟩
abbrev S2048x11008 : Shape := ⟨2, ![2048, 11008]⟩
abbrev S32x11008 : Shape := ⟨2, ![32, 11008]⟩
abbrev S11008 : Shape := ⟨1, ![11008]⟩
abbrev S1x11008 : Shape := ⟨2, ![1, 11008]⟩
abbrev S4096x11008 : Shape := ⟨2, ![4096, 11008]⟩
abbrev S128x512 : Shape := ⟨2, ![128, 512]⟩
abbrev S256x11008 : Shape := ⟨2, ![256, 11008]⟩
abbrev S128x11008 : Shape := ⟨2, ![128, 11008]⟩
abbrev S256x1x11008 : Shape := ⟨3, ![256, 1, 11008]⟩
abbrev S256x2x11008 : Shape := ⟨3, ![256, 2, 11008]⟩
abbrev S512x11008 : Shape := ⟨2, ![512, 11008]⟩
abbrev S4x11008 : Shape := ⟨2, ![4, 11008]⟩
abbrev S4x128x11008 : Shape := ⟨3, ![4, 128, 11008]⟩
abbrev S4x1x11008 : Shape := ⟨3, ![4, 1, 11008]⟩

abbrev nBuf : Space → Nat
  | .hbm => 7
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S2048x11008, .i32⟩
  | .hbm, ⟨2, _⟩ => ⟨S32x11008, .f32⟩
  | .hbm, ⟨3, _⟩ => ⟨S32x11008, .f32⟩
  | .hbm, ⟨4, _⟩ => ⟨S11008, .f32⟩
  | .hbm, ⟨5, _⟩ => ⟨S1x11008, .f32⟩
  | .hbm, ⟨6, _⟩ => ⟨S4096x11008, .f32⟩
  | .local _ .vmem, ⟨0, _⟩ => ⟨S128x512, .f32⟩
  | .local _ .vmem, ⟨1, _⟩ => ⟨S128x512, .f32⟩
  | .local _ .vmem, ⟨2, _⟩ => ⟨S256x11008, .i32⟩
  | .local _ .vmem, ⟨3, _⟩ => ⟨S256x11008, .i32⟩
  | .local _ .vmem, ⟨4, _⟩ => ⟨S32x11008, .f32⟩
  | .local _ .vmem, ⟨5, _⟩ => ⟨S32x11008, .f32⟩
  | .local _ .vmem, ⟨6, _⟩ => ⟨S1x11008, .f32⟩
  | .local _ .vmem, ⟨7, _⟩ => ⟨S128x11008, .f32⟩
  | .local _ .vmem, ⟨8, _⟩ => ⟨S128x11008, .f32⟩
  | .local _ .vmem, ⟨9, _⟩ => ⟨S128x11008, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 8], ![false, false]⟩

def k0_off1 (i : grid0.Coords) : Fin 2 → Nat :=
  let arg1 : BitVec 32 := BitVec.ofNat 32 (i 1).val
  let c4_i32_3 : BitVec 32 := 4#32
  let v16 : BitVec 32 := Scalar.muli arg1 c4_i32_3
  let v17 : Index := Scalar.indexCast v16
  let c0_4 : Index := 0#32
  ![v17.toNat, 0]
def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_12 : BitVec 32 := 0#32
  let v40 : BitVec 1 := Scalar.cmpi .ne v39 c0_i32_12
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x11008 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S32x11008 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x11008 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x11008 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x11008 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S11008_S1x11008 : S11008.ShapeCasts S1x11008
  inb_S128x11008_S128x11008_0_0 : ∀ a, (![0, 0] : Fin 2 → Nat) a + S128x11008.size a ≤ S128x11008.size a
  h_S128x11008 : 0 < S128x11008.numel
  shapeCasts_S128x11008_S128x11008 : S128x11008.ShapeCasts S128x11008
  inb_S256x11008_S256x11008_0_0 : ∀ a, (![0, 0] : Fin 2 → Nat) a + S256x11008.size a ≤ S256x11008.size a
  h_S256x11008 : 0 < S256x11008.numel
  shapeCasts_S256x11008_S256x1x11008 : S256x11008.ShapeCasts S256x1x11008
  concatenates_S256x1x11008_S256x1x11008_S256x2x11008_d1 : Shape.Concatenates [S256x1x11008, S256x1x11008] S256x2x11008 1
  shapeCasts_S256x2x11008_S512x11008 : S256x2x11008.ShapeCasts S512x11008
  h_S4x11008 : 0 < S4x11008.numel
  shapeCasts_S512x11008_S4x128x11008 : S512x11008.ShapeCasts S4x128x11008
  shapeCasts_S4x11008_S4x1x11008 : S4x11008.ShapeCasts S4x1x11008
  broadcasts_S4x1x11008_S4x128x11008 : S4x1x11008.Broadcasts S4x128x11008
  shapeCasts_S4x128x11008_S512x11008 : S4x128x11008.ShapeCasts S512x11008
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  inb_S1x11008_S1x11008_0_0 : ∀ a, (![0, 0] : Fin 2 → Nat) a + S1x11008.size a ≤ S1x11008.size a
  h_S1x11008 : 0 < S1x11008.numel
  shapeCasts_S1x11008_S1x11008 : S1x11008.ShapeCasts S1x11008
  broadcasts_S1x11008_S128x11008 : S1x11008.Broadcasts S128x11008
  dot_S128x512_S512x11008_S128x11008_1_0_0_1_n_n_wf : DotDims.WF S128x512 S512x11008 S128x11008 [1] [0] [0] [1] [] []
  hrank0 : 0 < grid0.rank
  k0_off1_inb : ∀ i : grid0.Coords, ∀ a, (k0_off1 i) a + S4x11008.size a ≤ S32x11008.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x4096.size a
  hwx0_0 : ∀ i : grid0.Coords, EltTy.bits .f32 = 32 ∨ (Rect.block (s := S4096x4096) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x11008.size a ≤ S2048x11008.size a
  hwx0_1 : ∀ i : grid0.Coords, EltTy.bits .i32 = 32 ∨ (Rect.block (s := S2048x11008) S256x11008.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x11008.size a ≤ S32x11008.size a
  hwx0_2 : ∀ i : grid0.Coords, EltTy.bits .f32 = 32 ∨ (Rect.block (s := S32x11008) S32x11008.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x11008.size a ≤ S32x11008.size a
  hwx0_3 : ∀ i : grid0.Coords, EltTy.bits .f32 = 32 ∨ (Rect.block (s := S32x11008) S32x11008.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x11008.size a ≤ S1x11008.size a
  hwx0_4 : ∀ i : grid0.Coords, EltTy.bits .f32 = 32 ∨ (Rect.block (s := S1x11008) S1x11008.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x11008.size a ≤ S4096x11008.size a
  hwx0_5 : ∀ i : grid0.Coords, EltTy.bits .f32 = 32 ∨ (Rect.block (s := S4096x11008) S128x11008.size (cc0_transform_5 i) (hinb0_5 i)).WholeWords (EltTy.packing .f32)

variable [Facts₀]

def dot_S128x512_S512x11008_S128x11008_1_0_0_1_n_n : DotDims S128x512 S512x11008 S128x11008 where
  lhsContracting := [1]
  rhsContracting := [0]
  lhsNonContracting := [0]
  rhsNonContracting := [1]
  lhsBatch := []
  rhsBatch := []
  wf := dot_S128x512_S512x11008_S128x11008_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x11008.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x11008.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x11008.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x11008.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x11008.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S2048x11008 : Shape := ⟨2, ![2048, 11008]⟩
abbrev S32x11008 : Shape := ⟨2, ![32, 11008]⟩
abbrev S11008 : Shape := ⟨1, ![11008]⟩
abbrev S_ : Shape := ⟨0, ![]⟩
abbrev S2048x1x11008 : Shape := ⟨3, ![2048, 1, 11008]⟩
abbrev S2048x2x11008 : Shape := ⟨3, ![2048, 2, 11008]⟩
abbrev S4096x11008 : Shape := ⟨2, ![4096, 11008]⟩
abbrev S32x128x11008 : Shape := ⟨3, ![32, 128, 11008]⟩
abbrev S32x1x11008 : Shape := ⟨3, ![32, 1, 11008]⟩
abbrev S1x11008 : Shape := ⟨2, ![1, 11008]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S2048x11008, .i32⟩
  | .hbm, ⟨2, _⟩ => ⟨S32x11008, .f32⟩
  | .hbm, ⟨3, _⟩ => ⟨S32x11008, .f32⟩
  | .hbm, ⟨4, _⟩ => ⟨S11008, .f32⟩
  | .hbm, ⟨5, _⟩ => ⟨S_, .i32⟩
  | .hbm, ⟨6, _⟩ => ⟨S2048x11008, .i32⟩
  | .hbm, ⟨7, _⟩ => ⟨S2048x11008, .i32⟩
  | .hbm, ⟨8, _⟩ => ⟨S_, .i32⟩
  | .hbm, ⟨9, _⟩ => ⟨S2048x11008, .i32⟩
  | .hbm, ⟨10, _⟩ => ⟨S2048x11008, .i32⟩
  | .hbm, ⟨11, _⟩ => ⟨S_, .i32⟩
  | .hbm, ⟨12, _⟩ => ⟨S2048x11008, .i32⟩
  | .hbm, ⟨13, _⟩ => ⟨S2048x11008, .i32⟩
  | .hbm, ⟨14, _⟩ => ⟨S2048x1x11008, .i32⟩
  | .hbm, ⟨15, _⟩ => ⟨S2048x1x11008, .i32⟩
  | .hbm, ⟨16, _⟩ => ⟨S2048x2x11008, .i32⟩
  | .hbm, ⟨17, _⟩ => ⟨S4096x11008, .i32⟩
  | .hbm, ⟨18, _⟩ => ⟨S4096x11008, .f32⟩
  | .hbm, ⟨19, _⟩ => ⟨S32x128x11008, .f32⟩
  | .hbm, ⟨20, _⟩ => ⟨S32x1x11008, .f32⟩
  | .hbm, ⟨21, _⟩ => ⟨S32x128x11008, .f32⟩
  | .hbm, ⟨22, _⟩ => ⟨S32x128x11008, .f32⟩
  | .hbm, ⟨23, _⟩ => ⟨S32x1x11008, .f32⟩
  | .hbm, ⟨24, _⟩ => ⟨S32x128x11008, .f32⟩
  | .hbm, ⟨25, _⟩ => ⟨S32x128x11008, .f32⟩
  | .hbm, ⟨26, _⟩ => ⟨S4096x11008, .f32⟩
  | .hbm, ⟨27, _⟩ => ⟨S4096x11008, .f32⟩
  | .hbm, ⟨28, _⟩ => ⟨S1x11008, .f32⟩
  | .hbm, ⟨29, _⟩ => ⟨S4096x11008, .f32⟩
  | .hbm, ⟨30, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S_S2048x11008 : S_.BroadcastsInDim S2048x11008 (![] : Fin 0 → Fin S2048x11008.rank)
  bcast_S2048x11008_S2048x1x11008_0_2 : S2048x11008.BroadcastsInDim S2048x1x11008 (![0, 2] : Fin 2 → Fin S2048x1x11008.rank)
  concatenates_S2048x1x11008_S2048x1x11008_S2048x2x11008_d1 : Shape.Concatenates [S2048x1x11008, S2048x1x11008] S2048x2x11008 1
  shapeCasts_S2048x2x11008_S4096x11008 : S2048x2x11008.ShapeCasts S4096x11008
  shapeCasts_S4096x11008_S32x128x11008 : S4096x11008.ShapeCasts S32x128x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  dot_S4096x4096_S4096x11008_S4096x11008_1_0_0_1_n_n_wf : DotDims.WF S4096x4096 S4096x11008 S4096x11008 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf

class Facts : Prop extends Facts₀ where

variable [Facts]
-- ==== Proof.Spec.lean ====
/-
  The int4 linear layer, entry by entry, over the extended reals.

  A packed 32-bit word holds two four-bit weights: its bits 0 to 3 are row 2p of the unpacked weight matrix and its
  bits 4 to 7 are row 2p + 1, p the word's row. Row j of the weight matrix belongs to quantisation group j / 128; its
  entry in column n is (nibble − zero point) · scale with that group's zero point and scale in column n. The layer's
  result at (r, n) is the sum over j of x(r, j) · w(j, n), plus the bias at n.

  The reduction index j < 4096 is also cut into 8 tiles of 512: tile k holds j = 512·k + j', and the full sum is the
  sum over the tiles of each tile's partial sum. Addition of extended reals is commutative and associative, so this
  regrouping needs nothing of the summands.
-/
import Idealize.ShloMosaic.PureOps.Ideal
import Idealize.ShloMosaic.Lib.ValueIdx

noncomputable section

open scoped BigOperators

namespace Cert.Int4Linear

open Idealize.ShloMosaic Idealize.ShloMosaic.ValueIdx

/-- Activations, packed weights, per-group scales or zero points, bias, result. -/
abbrev SAct : Shape := ⟨2, ![4096, 4096]⟩
abbrev SPacked : Shape := ⟨2, ![2048, 11008]⟩
abbrev SGroup : Shape := ⟨2, ![32, 11008]⟩
abbrev SBias : Shape := ⟨1, ![11008]⟩
abbrev SOut : Shape := ⟨2, ![4096, 11008]⟩

/-- The nibble of the packed word `w` that row `j` of the weight matrix reads: bits 0–3 when `j` is even, bits 4–7
    when `j` is odd (the word shifted right by four, then masked). -/
def nibbleOf (w : BitVec 32) (j : ℕ) : BitVec 32 :=
  if j % 2 = 0 then IntOp.andi w 15#32 else IntOp.andi (IntOp.shrsi .host w 4#32) 15#32

/-- One dequantised weight: the nibble `q` read as an integer, less the zero point `z`, times the scale `s`. -/
def dequant (q : BitVec 32) (z s : EReal) : EReal :=
  ((FloatOps.sitofp (F := Ideal) .f32 q : EReal) - z) * s

/-- Row `j`, column `n` of the dequantised weight matrix: the nibble of packed row `j / 2`, with group `j / 128`'s
    zero point and scale. -/
def weight (P : IVec SPacked 32) (sc ze : FVec Ideal SGroup .f32) (j : Fin 4096) (n : Fin 11008) : EReal :=
  dequant (nibbleOf (P (ix2 (⟨j.val / 2, by have := j.isLt; omega⟩ : Fin 2048) n)) j.val)
    (ze (ix2 (⟨j.val / 128, by have := j.isLt; omega⟩ : Fin 32) n))
    (sc (ix2 (⟨j.val / 128, by have := j.isLt; omega⟩ : Fin 32) n))

/-- The layer: `x · W + bias`, at each entry of the result. -/
def layer (x : FVec Ideal SAct .f32) (P : IVec SPacked 32) (sc ze : FVec Ideal SGroup .f32) (b : FVec Ideal SBias .f32) :
    FVec Ideal SOut .f32 := fun i =>
  (∑ j : Fin 4096, x (ix2 (i 0) j) * weight P sc ze j (i 1)) + b (ix1 (i 1))

/-- What reduction tile `k` adds to entry `(r, n)` of row tile `i`'s accumulator: the partial sum over the tile's 512
    reduction indices `512·k + j'` of `x(128·i + r, ·) · w(·, n)`. Stated for all naturals `i`, `k` (zero where a
    coordinate would leave the arrays), so that it can be summed over a range without carrying bounds. -/
def tileTerm (x : FVec Ideal SAct .f32) (P : IVec SPacked 32) (sc ze : FVec Ideal SGroup .f32) (i k : ℕ) (r : Fin 128)
    (n : Fin 11008) : EReal :=
  ∑ j' : Fin 512, if h : 128 * i + r.val < 4096 ∧ 512 * k + j'.val < 4096 then
      x (ix2 (⟨128 * i + r.val, h.1⟩ : Fin 4096) (⟨512 * k + j'.val, h.2⟩ : Fin 4096)) * weight P sc ze ⟨512 * k + j'.val, h.2⟩ n
    else 0

/-- A sum over `j < 4096` is the sum over the 8 tiles of the sums over each tile's 512 indices. -/
theorem sum_tiles {M : Type*} [AddCommMonoid M] (f : Fin 4096 → M) :
    ∑ j : Fin 4096, f j = ∑ k : Fin 8, ∑ j' : Fin 512, f ⟨512 * k.val + j'.val, by have := k.isLt; have := j'.isLt; omega⟩ := by
  rw [← Fintype.sum_prod_type (f := fun p : Fin 8 × Fin 512 => f ⟨512 * p.1.val + p.2.val, by have := p.1.isLt; have := p.2.isLt; omega⟩)]
  refine (Fintype.sum_equiv (finProdFinEquiv (m := 8) (n := 512)).symm _ _ fun j => ?_)
  refine congrArg f (Fin.ext ?_)
  show j.val = 512 * (j.val / 512) + j.val % 512
  omega

/-- The eight tiles of row tile `i` together are the whole reduction. -/
theorem sum_tileTerm (x : FVec Ideal SAct .f32) (P : IVec SPacked 32) (sc ze : FVec Ideal SGroup .f32) (i : ℕ) (hi : i < 32)
    (r : Fin 128) (n : Fin 11008) :
    ∑ k ∈ Finset.range 8, tileTerm x P sc ze i k r n
      = ∑ j : Fin 4096, x (ix2 (⟨128 * i + r.val, by have := r.isLt; omega⟩ : Fin 4096) j) * weight P sc ze j n := by
  rw [sum_tiles, ← Fin.sum_univ_eq_sum_range (fun k => tileTerm x P sc ze i k r n) 8]
  refine Finset.sum_congr rfl fun k _ => ?_
  unfold tileTerm
  refine Finset.sum_congr rfl fun j' _ => ?_
  have hk := k.isLt; have hj := j'.isLt; have hr := r.isLt
  rw [dif_pos ⟨by omega, by omega⟩]

end Cert.Int4Linear

end
-- ==== Proof.RefLayer.lean ====
/-
  The reference program's result is the layer.

  The reference builds the dequantised weight matrix in stages and then multiplies. Reading each stage at one entry:

  * the low nibbles `w & 15` and the high nibbles `(w >> 4) & 15` of the packed words are stacked on a new middle
    axis of length two, giving an array indexed `(p, c, n)` with `c = 0` the low and `c = 1` the high nibble of
    word `(p, n)`;
  * that array is reshaped to 4096 rows: in row-major order row `k`, column `n` has flat position `k·11008 + n`,
    which in the stacked array is `p = k / 2`, `c = k % 2`, column `n`. So row `k` reads the nibble of word row
    `k / 2` that its parity selects;
  * after conversion to a float the rows are regrouped as 32 groups of 128 (row `k` is row `k % 128` of group
    `k / 128`), each group's zero point is subtracted and its scale multiplied in, both read in column `n`, and the
    rows are put back in one axis. Entry `(k, n)` is therefore `(nibble − zero point) · scale` with group `k / 128`'s
    zero point and scale: the dequantised weight;
  * the product with the activations is, at the exact instance, the sum over `k` of `x(r, k) · w(k, n)`, and the bias,
    broadcast along the rows, adds its entry `n`.
-/
import proofs.«424205_j73778948211032_1_alg».proof.Proof.Spec
import proofs.«424205_j73778948211032_1_alg».proof.Proof.Gen.ReferenceIdeal.Read

noncomputable section

open scoped BigOperators

namespace Cert.Int4Linear.Ref

open Idealize.ShloMosaic Idealize.ShloMosaic.ValueIdx Cert.ReferenceIdeal Cert.ReferenceIdeal.Read

/-! ## The two nibble arrays -/

/-- The low nibbles: the packed word at `(p, n)` masked with the constant 15 (a scalar broadcast to every entry). -/
theorem v1_at (x1 : IVec S2048x11008 32) (p : Fin 2048) (n : Fin 11008) :
    val_main_v1 (F := Ideal) x1 (ix2 p n) = IntOp.andi (x1 (ix2 p n)) 15#32 := by
  rw [val_main_v1_apply, val_main_v0_apply, val_main_c_apply]

/-- The high nibbles: the packed word at `(p, n)` shifted right arithmetically by the constant 4, then masked with
    the constant 15. -/
theorem v5_at (x1 : IVec S2048x11008 32) (p : Fin 2048) (n : Fin 11008) :
    val_main_v5 (F := Ideal) x1 (ix2 p n) = IntOp.andi (IntOp.shrsi .host (x1 (ix2 p n)) 4#32) 15#32 := by
  rw [val_main_v5_apply, val_main_v3_apply, val_main_v2_apply, val_main_c_0_apply, val_main_v4_apply,
    val_main_c_1_apply]

/-! ## Stacking them on a middle axis -/

/-- Giving the low-nibble array a middle axis of length one: entry `(p, c, n)` reads entry `(p, n)`. -/
theorem idx6_at (p : Fin 2048) (c : Fin 1) (n : Fin 11008) : idx_main_v6 (ix3 p c n) = ix2 p n := by
  funext a
  match a with
  | ⟨0, _⟩ => rfl
  | ⟨1, _⟩ => rfl

/-- The same for the high-nibble array. -/
theorem idx7_at (p : Fin 2048) (c : Fin 1) (n : Fin 11008) : idx_main_v7 (ix3 p c n) = ix2 p n := by
  funext a
  match a with
  | ⟨0, _⟩ => rfl
  | ⟨1, _⟩ => rfl

/-- The stacked array at middle coordinate 0 is the first piece, the low nibble of word `(p, n)`: the index
    `(p, 0, n)` of the first piece agrees with `(p, c, n)` on every axis, the middle one because `c = 0`. -/
theorem v8_low (x1 : IVec S2048x11008 32) (p : Fin 2048) (c : Fin 2) (n : Fin 11008) (hc : c.val = 0) :
    val_main_v8 (F := Ideal) x1 (ix3 p c n) = IntOp.andi (x1 (ix2 p n)) 15#32 := by
  unfold val_main_v8
  refine (concatenate_pair_apply_left (t := S2048x2x11008) (s₁ := S2048x1x11008) (s₂ := S2048x1x11008) 1 _ _ _
    (ix3 p c n) rfl (ix3 p (0 : Fin 1) n) ?_).trans ?_
  · intro b
    match b with
    | ⟨0, _⟩ => rfl
    | ⟨1, _⟩ => exact hc.symm
    | ⟨2, _⟩ => rfl
  · rw [val_main_v6_apply, idx6_at, v1_at]

/-- The stacked array at middle coordinate 1 is the second piece, the high nibble of word `(p, n)`: the index
    `(p, 0, n)` of the second piece agrees with `(p, c, n)` off the middle axis, and on it `0` plus the first piece's
    extent `1` is `c`. -/
theorem v8_high (x1 : IVec S2048x11008 32) (p : Fin 2048) (c : Fin 2) (n : Fin 11008) (hc : c.val = 1) :
    val_main_v8 (F := Ideal) x1 (ix3 p c n) = IntOp.andi (IntOp.shrsi .host (x1 (ix2 p n)) 4#32) 15#32 := by
  unfold val_main_v8
  refine (concatenate_pair_apply_right (t := S2048x2x11008) (s₁ := S2048x1x11008) (s₂ := S2048x1x11008) 1 _ _ _
    (ix3 p c n) rfl rfl (ix3 p (0 : Fin 1) n) ?_ ?_).trans ?_
  · intro b hb
    match b, hb with
    | ⟨0, _⟩, _ => rfl
    | ⟨1, _⟩, hb => exact absurd rfl hb
    | ⟨2, _⟩, _ => rfl
  · exact hc.symm
  · rw [val_main_v7_apply, idx7_at, v5_at]

/-! ## Unpacked rows -/

/-- Row `k`, column `n` of the 4096-row array sits at flat position `k·11008 + n`; in the stacked array, whose
    rows of words have `2·11008 = 22016` entries, that is word row `k / 2`, nibble `k % 2`, column `n`. -/
theorem idx9_at (k : Fin 4096) (n : Fin 11008) :
    idx_main_v9 (ix2 k n)
      = ix3 (⟨k.val / 2, by have := k.isLt; omega⟩ : Fin 2048) (⟨k.val % 2, by omega⟩ : Fin 2) n := by
  have hk := k.isLt
  have hn := n.isLt
  funext a
  refine Fin.ext ?_
  match a with
  | ⟨0, _⟩ => show (k.val * 11008 + n.val) / 22016 = k.val / 2; omega
  | ⟨1, _⟩ => show (k.val * 11008 + n.val) / 11008 % 2 = k.val % 2; omega
  | ⟨2, _⟩ => show (k.val * 11008 + n.val) % 11008 = n.val; omega

/-- The unpacked integer matrix at `(k, n)` is the nibble of packed row `k / 2` that the parity of `k` selects. -/
theorem v9_at (x1 : IVec S2048x11008 32) (k : Fin 4096) (n : Fin 11008) :
    val_main_v9 (F := Ideal) x1 (ix2 k n)
      = nibbleOf (x1 (ix2 (⟨k.val / 2, by have := k.isLt; omega⟩ : Fin 2048) n)) k.val := by
  rw [val_main_v9_apply, idx9_at]
  unfold nibbleOf
  by_cases h : k.val % 2 = 0
  · -- `k` even: middle coordinate 0, the low nibble
    rw [if_pos h]
    exact v8_low x1 _ _ n h
  · -- `k` odd: middle coordinate 1, the high nibble
    rw [if_neg h]
    exact v8_high x1 _ _ n (by show k.val % 2 = 1; omega)

/-! ## Groups of 128 rows -/

/-- Row `k`, column `n` of the 4096-row matrix is, among 32 groups of 128 rows (`128·11008 = 1409024` entries a
    group), row `k % 128` of group `k / 128`, column `n`. -/
theorem idx18_at (k : Fin 4096) (n : Fin 11008) :
    idx_main_v18 (ix2 k n)
      = ix3 (⟨k.val / 128, by have := k.isLt; omega⟩ : Fin 32) (⟨k.val % 128, by omega⟩ : Fin 128) n := by
  have hk := k.isLt
  have hn := n.isLt
  funext a
  refine Fin.ext ?_
  match a with
  | ⟨0, _⟩ => show (k.val * 11008 + n.val) / 1409024 = k.val / 128; omega
  | ⟨1, _⟩ => show (k.val * 11008 + n.val) / 11008 % 128 = k.val % 128; omega
  | ⟨2, _⟩ => show (k.val * 11008 + n.val) % 11008 = n.val; omega

/-- Conversely row `r` of group `g`, column `n`, is row `k = 128·g + r` of the 4096-row matrix, column `n`. -/
theorem idx11_at (g : Fin 32) (r : Fin 128) (n : Fin 11008) (k : Fin 4096) (hk : k.val = g.val * 128 + r.val) :
    idx_main_v11 (ix3 g r n) = ix2 k n := by
  have hn := n.isLt
  funext a
  refine Fin.ext ?_
  match a with
  | ⟨0, _⟩ => show ((g.val * 128 + r.val) * 11008 + n.val) / 11008 = k.val; omega
  | ⟨1, _⟩ => show ((g.val * 128 + r.val) * 11008 + n.val) % 11008 = n.val; omega

/-- Broadcasting a per-group array along the 128 rows of a group: entry `(g, r, n)` reads entry `(g, 0, n)` … -/
theorem idx13_at (g : Fin 32) (r : Fin 128) (n : Fin 11008) :
    idx_main_v13 (ix3 g r n) = ix3 g (0 : Fin 1) n := by
  funext a
  match a with
  | ⟨0, _⟩ => rfl
  | ⟨1, _⟩ => rfl
  | ⟨2, _⟩ => rfl

/-- … which, the middle axis of length one being only inserted, is entry `(g, n)` of the zero points. -/
theorem idx12_at (g : Fin 32) (c : Fin 1) (n : Fin 11008) : idx_main_v12 (ix3 g c n) = ix2 g n := by
  funext a
  match a with
  | ⟨0, _⟩ => rfl
  | ⟨1, _⟩ => rfl

/-- The same two steps for the scales. -/
theorem idx16_at (g : Fin 32) (r : Fin 128) (n : Fin 11008) :
    idx_main_v16 (ix3 g r n) = ix3 g (0 : Fin 1) n := by
  funext a
  match a with
  | ⟨0, _⟩ => rfl
  | ⟨1, _⟩ => rfl
  | ⟨2, _⟩ => rfl

theorem idx15_at (g : Fin 32) (c : Fin 1) (n : Fin 11008) : idx_main_v15 (ix3 g c n) = ix2 g n := by
  funext a
  match a with
  | ⟨0, _⟩ => rfl
  | ⟨1, _⟩ => rfl

/-- The broadcast zero points at `(g, r, n)` are group `g`'s zero point in column `n`. -/
theorem v13_at (x3 : FVec Ideal S32x11008 .f32) (g : Fin 32) (r : Fin 128) (n : Fin 11008) :
    val_main_v13 (F := Ideal) x3 (ix3 g r n) = x3 (ix2 g n) := by
  rw [val_main_v13_apply, idx13_at, val_main_v12_apply, idx12_at]

/-- The broadcast scales at `(g, r, n)` are group `g`'s scale in column `n`. -/
theorem v16_at (x2 : FVec Ideal S32x11008 .f32) (g : Fin 32) (r : Fin 128) (n : Fin 11008) :
    val_main_v16 (F := Ideal) x2 (ix3 g r n) = x2 (ix2 g n) := by
  rw [val_main_v16_apply, idx16_at, val_main_v15_apply, idx15_at]

/-! ## The dequantised weight -/

/-- The reference's weight matrix at `(k, n)` is the dequantised weight: read in group `k / 128`, row `k % 128`,
    it is (float of the unpacked integer at row `128·(k / 128) + k % 128 = k`, less the group's zero point) times the
    group's scale. Over the extended reals the float subtraction and multiplication are the reals' own, which is how
    `dequant` is written. -/
theorem v18_at (x1 : IVec S2048x11008 32) (x2 x3 : FVec Ideal S32x11008 .f32) (k : Fin 4096) (n : Fin 11008) :
    val_main_v18 (F := Ideal) x1 x2 x3 (ix2 k n) = weight x1 x2 x3 k n := by
  rw [val_main_v18_apply, idx18_at, val_main_v17_apply, val_main_v14_apply, v13_at, v16_at, val_main_v11_apply,
    idx11_at _ _ n k (by show k.val = k.val / 128 * 128 + k.val % 128; omega), val_main_v10_apply, v9_at]
  unfold weight dequant
  rfl

/-! ## The product and the bias -/

/-- The product's left operand for output `(r, n)` and reduction index `k` is the activation at `(r, k)`. -/
theorem lidx19_at (r : Fin 4096) (n : Fin 11008) (k : Fin 4096) : lidx_main_v19 (ix2 r n) k = ix2 r k := by
  funext a
  match a with
  | ⟨0, _⟩ => rfl
  | ⟨1, _⟩ => rfl

/-- Its right operand is the weight at `(k, n)`. -/
theorem ridx19_at (r : Fin 4096) (n : Fin 11008) (k : Fin 4096) : ridx_main_v19 (ix2 r n) k = ix2 k n := by
  funext a
  match a with
  | ⟨0, _⟩ => rfl
  | ⟨1, _⟩ => rfl

/-- The bias, given a leading axis of length one and broadcast along the 4096 rows, at `(r, n)` is its entry `n`. -/
theorem v21_at (x4 : FVec Ideal S11008 .f32) (r : Fin 4096) (n : Fin 11008) :
    val_main_v21 (F := Ideal) x4 (ix2 r n) = x4 (ix1 n) := by
  rw [val_main_v21_apply, val_main_v20_apply]
  refine congrArg x4 ?_
  funext a
  match a with
  | ⟨0, _⟩ => rfl

/-- The reference's last stage, as a function of its five arguments (activations, packed weights, scales, zero points,
    bias), is the layer. -/
theorem ref_eq (x0 : FVec Ideal S4096x4096 .f32) (x1 : IVec S2048x11008 32) (x2 x3 : FVec Ideal S32x11008 .f32)
    (x4 : FVec Ideal S11008 .f32) :
    val_main_v22 (F := Ideal) x0 x1 x2 x3 x4 = layer x0 x1 x2 x3 x4 := by
  -- entry by entry, at row `r` and column `n`
  funext i
  obtain ⟨r, n, rfl⟩ : ∃ (r : Fin 4096) (n : Fin 11008), i = ix2 r n := ⟨i 0, i 1, eq_ix2 i⟩
  -- the last stage adds the broadcast bias to the product, and the product is a sum over the reduction index
  rw [val_main_v22_apply, val_main_v19_apply, v21_at]
  unfold layer
  show (∑ k : Fin 4096, x0 (lidx_main_v19 (ix2 r n) k) * val_main_v18 (F := Ideal) x1 x2 x3 (ridx_main_v19 (ix2 r n) k))
        + x4 (ix1 n)
      = (∑ j : Fin 4096, x0 (ix2 r j) * weight x1 x2 x3 j n) + x4 (ix1 n)
  -- the bias terms are the same; the sums agree term by term, each term `x(r, k)` times the dequantised weight
  refine congrArg (· + x4 (ix1 n)) ?_
  refine Finset.sum_congr rfl fun k _ => ?_
  rw [lidx19_at, ridx19_at, v18_at]

end Cert.Int4Linear.Ref

end
-- ==== Proof.TilePayload.lean ====
/-
  The kernel body's three stored values, each at an entry of its 128 × 11008 block.
-/
import proofs.«424205_j73778948211032_1_alg».proof.Proof.Spec
import proofs.«424205_j73778948211032_1_alg».proof.Proof.Gen.KernelIdeal.Skeleton
import Idealize.ShloMosaic.Lib.Pipeline.Value
import Idealize.ShloMosaic.Lib.ValueIdx
import Idealize.ShloMosaic.Lib.KernelVsHost
import Idealize.ShloMosaic.PureOps.Ideal.Laws

noncomputable section

open scoped BigOperators

namespace Cert.Int4Linear.Tile

open Idealize.ShloMosaic Idealize.ShloMosaic.ValueIdx Cert.KernelIdeal Cert.KernelIdeal.Gen

/-! ## The reset and the output store -/

/-- The value the first grid point of a row tile stores into the accumulator before anything else: zero. -/
theorem reset_apply (r : Fin 128) (n : Fin 11008) : k0_pay2 (F := Ideal) (ix2 r n) = 0 := by
  unfold k0_pay2
  -- the cast to the same shape is the identity; what is left is the splat of the word 0, read as a number
  rw [shapeCast_self]
  exact Ideal.ofBits_zero_f32

/-! ## The dequantised weight tile

The kernel builds the 512 × 11008 tile of weights in the order: the two nibble planes of the packed block as numbers,
interleaved row by row; then, with the 512 rows seen as 4 groups of 128, the group's zero point subtracted and the
group's scale multiplied. Each definition below is one of these stages, over the same blocks the payload takes, and each
lemma reads its stage at one entry. -/

/-- The low nibbles of the packed block as numbers: each word masked to its bits 0–3, then converted. -/
def lowNib (wp : Vec Ideal S256x11008 .i32) : FVec Ideal S256x11008 .f32 :=
  sitofp .f32 (andi wp (broadcast S256x11008 15#32 : IVec S256x11008 32))

/-- The high nibbles as numbers: each word shifted right by four, masked, then converted. -/
def highNib (wp : Vec Ideal S256x11008 .i32) : FVec Ideal S256x11008 .f32 :=
  sitofp .f32 (andi (shrsi wp (broadcast S256x11008 4#32 : IVec S256x11008 32)) (broadcast S256x11008 15#32 : IVec S256x11008 32))

theorem lowNib_apply (wp : Vec Ideal S256x11008 .i32) (p : Fin 256) (n : Fin 11008) :
    lowNib wp (ix2 p n) = FloatOps.sitofp (F := Ideal) .f32 (IntOp.andi (wp (ix2 p n)) 15#32) := rfl

theorem highNib_apply (wp : Vec Ideal S256x11008 .i32) (p : Fin 256) (n : Fin 11008) :
    highNib wp (ix2 p n)
      = FloatOps.sitofp (F := Ideal) .f32 (IntOp.andi (IntOp.shrsi .vector (wp (ix2 p n)) 4#32) 15#32) := rfl

/-- A 256 × 11008 block given a middle axis of extent one keeps its entries: (p, 0, n) reads (p, n). -/
theorem unitPlane_apply (y : FVec Ideal S256x11008 .f32) (p : Fin 256) (n : Fin 11008) :
    shapeCast S256x1x11008 y shapeCasts_S256x11008_S256x1x11008 (ix3 p (0 : Fin 1) n) = y (ix2 p n) := by
  refine shapeCast_apply y _ (ix3 p (0 : Fin 1) n) (ix2 p n) ?_
  -- both row-major positions are p · 11008 + n
  rewrite [Shape.rowMajor_val_two, Shape.rowMajor_val_three]
  show p.val * 11008 + n.val = (p.val * 1 + 0) * 11008 + n.val
  omega

/-- The two planes joined along the middle axis: [256, 2, 11008], plane 0 the low nibbles, plane 1 the high ones. -/
def nibPlanes (wp : Vec Ideal S256x11008 .i32) : FVec Ideal S256x2x11008 .f32 :=
  concatenate S256x2x11008 1
    [⟨S256x1x11008, shapeCast S256x1x11008 (lowNib wp) shapeCasts_S256x11008_S256x1x11008⟩,
     ⟨S256x1x11008, shapeCast S256x1x11008 (highNib wp) shapeCasts_S256x11008_S256x1x11008⟩]
    concatenates_S256x1x11008_S256x1x11008_S256x2x11008_d1

/-- Plane 0 of the joined block is the low nibble of the word. -/
theorem nibPlanes_low (wp : Vec Ideal S256x11008 .i32) (p : Fin 256) (c : Fin 2) (n : Fin 11008) (hc : c.val = 0) :
    nibPlanes wp (ix3 p c n) = lowNib wp (ix2 p n) := by
  unfold nibPlanes
  -- coordinate 0 on the joined axis lies in the first piece, at the same coordinates
  refine (concatenate_pair_apply_left (t := S256x2x11008) (s₁ := S256x1x11008) (s₂ := S256x1x11008) 1 _ _ _
    (ix3 p c n) rfl (ix3 p (0 : Fin 1) n) (fun b => ?_)).trans (unitPlane_apply (lowNib wp) p n)
  match b with
  | ⟨0, _⟩ => rfl
  | ⟨1, _⟩ => exact hc.symm
  | ⟨2, _⟩ => rfl

/-- Plane 1 of the joined block is the high nibble of the word. -/
theorem nibPlanes_high (wp : Vec Ideal S256x11008 .i32) (p : Fin 256) (c : Fin 2) (n : Fin 11008) (hc : c.val = 1) :
    nibPlanes wp (ix3 p c n) = highNib wp (ix2 p n) := by
  unfold nibPlanes
  -- coordinate 1 on the joined axis lies past the first piece's one plane: the second piece, at plane 1 − 1 = 0
  refine (concatenate_pair_apply_right (t := S256x2x11008) (s₁ := S256x1x11008) (s₂ := S256x1x11008) 1 _ _ _
    (ix3 p c n) rfl rfl (ix3 p (0 : Fin 1) n) (fun b hb => ?_) ?_).trans (unitPlane_apply (highNib wp) p n)
  · match b, hb with
    | ⟨0, _⟩, _ => rfl
    | ⟨1, _⟩, hb => exact absurd rfl hb
    | ⟨2, _⟩, _ => rfl
  · show 0 + 1 = c.val
    omega

/-- The joined block read as 512 rows: row j' is plane j' % 2 of word row j' / 2. -/
def nibRows (wp : Vec Ideal S256x11008 .i32) : FVec Ideal S512x11008 .f32 :=
  shapeCast S512x11008 (nibPlanes wp) shapeCasts_S256x2x11008_S512x11008

/-- Row j' of the nibble rows is, as a number, the nibble that row j' of the weight matrix reads from word row j' / 2. -/
theorem nibRows_apply (wp : Vec Ideal S256x11008 .i32) (j' : Fin 512) (n : Fin 11008) :
    nibRows wp (ix2 j' n)
      = FloatOps.sitofp (F := Ideal) .f32
          (nibbleOf (wp (ix2 (⟨j'.val / 2, by have := j'.isLt; omega⟩ : Fin 256) n)) j'.val) := by
  have hj := j'.isLt
  unfold nibRows
  -- entry (j', n) of the 512 rows has row-major position j' · 11008 + n; in [256, 2, 11008] that is the position of
  -- (j' / 2, j' % 2, n), since (j' / 2) · 2 + j' % 2 = j'
  refine (shapeCast_apply (nibPlanes wp) _ (ix2 j' n)
    (ix3 (⟨j'.val / 2, by omega⟩ : Fin 256) (⟨j'.val % 2, by omega⟩ : Fin 2) n) ?_).trans ?_
  · rewrite [Shape.rowMajor_val_three, Shape.rowMajor_val_two]
    show (j'.val / 2 * 2 + j'.val % 2) * 11008 + n.val = j'.val * 11008 + n.val
    omega
  -- the parity of j' picks the plane, and the specification's nibble splits on the same parity
  · unfold nibbleOf
    by_cases h0 : j'.val % 2 = 0
    · rw [if_pos h0, nibPlanes_low wp _ _ n h0, lowNib_apply]
    · rw [if_neg h0, nibPlanes_high wp _ _ n (by show j'.val % 2 = 1; omega), highNib_apply]
      -- a 32-bit arithmetic shift is the same word on the vector unit as on the host
      rw [shrsi_unit .vector .host]

/-- A block of four per-group rows laid along the 128 rows of each group: [4, 11008] to [4, 1, 11008] to [4, 128, 11008]. -/
def groupRows (y : Vec Ideal S4x11008 .f32) : FVec Ideal S4x128x11008 .f32 :=
  broadcastTo S4x128x11008 (shapeCast S4x1x11008 y shapeCasts_S4x11008_S4x1x11008) broadcasts_S4x1x11008_S4x128x11008

/-- Every row m of group g reads the group's one row. -/
theorem groupRows_apply (y : Vec Ideal S4x11008 .f32) (g : Fin 4) (m : Fin 128) (n : Fin 11008) :
    groupRows y (ix3 g m n) = y (ix2 g n) := by
  unfold groupRows
  -- the broadcast reads coordinate 0 on the unit middle axis and keeps the other two
  refine (broadcastTo_apply _ _ (ix3 g m n) (ix3 g (0 : Fin 1) n) (fun a => ?_)).trans ?_
  · match a with
    | ⟨0, _⟩ => rfl
    | ⟨1, _⟩ => rfl
    | ⟨2, _⟩ => rfl
  -- and (g, 0, n) of [4, 1, 11008] is (g, n) of [4, 11008]: both at row-major position g · 11008 + n
  · refine shapeCast_apply y _ (ix3 g (0 : Fin 1) n) (ix2 g n) ?_
    rewrite [Shape.rowMajor_val_two, Shape.rowMajor_val_three]
    show g.val * 11008 + n.val = (g.val * 1 + 0) * 11008 + n.val
    omega

/-- The 512 × 11008 tile of dequantised weights: the nibble rows seen as 4 groups of 128 rows, less the group's zero
    point, times the group's scale, seen as 512 rows again. -/
def wtile (wp : Vec Ideal S256x11008 .i32) (sb zb : Vec Ideal S4x11008 .f32) : FVec Ideal S512x11008 .f32 :=
  shapeCast S512x11008
    (mulf (subf (shapeCast S4x128x11008 (nibRows wp) shapeCasts_S512x11008_S4x128x11008) (groupRows zb)) (groupRows sb))
    shapeCasts_S4x128x11008_S512x11008

/-- Entry (j', n) of the tile is the specification's dequantised weight: nibble j' of word row j' / 2, with row j' / 128
    of the zero points and of the scales. -/
theorem wtile_apply (wp : Vec Ideal S256x11008 .i32) (sb zb : Vec Ideal S4x11008 .f32) (j' : Fin 512) (n : Fin 11008) :
    wtile wp sb zb (ix2 j' n)
      = dequant (nibbleOf (wp (ix2 (⟨j'.val / 2, by have := j'.isLt; omega⟩ : Fin 256) n)) j'.val)
          (zb (ix2 (⟨j'.val / 128, by have := j'.isLt; omega⟩ : Fin 4) n))
          (sb (ix2 (⟨j'.val / 128, by have := j'.isLt; omega⟩ : Fin 4) n)) := by
  have hj := j'.isLt
  unfold wtile
  -- row j' of the 512 rows is row j' % 128 of group j' / 128: (j' / 128) · 128 + j' % 128 = j'
  refine (shapeCast_apply _ _ (ix2 j' n)
    (ix3 (⟨j'.val / 128, by omega⟩ : Fin 4) (⟨j'.val % 128, by omega⟩ : Fin 128) n) ?_).trans ?_
  · rewrite [Shape.rowMajor_val_three, Shape.rowMajor_val_two]
    show (j'.val / 128 * 128 + j'.val % 128) * 11008 + n.val = j'.val * 11008 + n.val
    omega
  -- the product and the difference are entrywise, and the two group blocks read the group's row
  · rw [mulf_apply, subf_apply, groupRows_apply, groupRows_apply]
    -- the nibble rows seen by groups: the same identity of positions, read the other way
    have hrow : shapeCast S4x128x11008 (nibRows wp) shapeCasts_S512x11008_S4x128x11008
        (ix3 (⟨j'.val / 128, by omega⟩ : Fin 4) (⟨j'.val % 128, by omega⟩ : Fin 128) n) = nibRows wp (ix2 j' n) := by
      refine shapeCast_apply (nibRows wp) _ _ (ix2 j' n) ?_
      rewrite [Shape.rowMajor_val_three, Shape.rowMajor_val_two]
      show j'.val * 11008 + n.val = (j'.val / 128 * 128 + j'.val % 128) * 11008 + n.val
      omega
    rw [hrow, nibRows_apply]
    rfl

/-! ## The matrix product of the tile

The kernel multiplies the 128 × 512 activation block by the 512 × 11008 weight tile into a zero accumulator. Over the
extended reals that is, at entry (r, n), the plain sum over the 512 contraction indices k of x(r, k) · w(k, n). The
product's dimension numbers contract axis 1 of the left operand with axis 0 of the right; the four lemmas below read the
two operand indices of an output index and a contraction index, one axis at a time. -/

/-- Axis 0 of the left operand's index is the output row. -/
theorem lhs_tileDot_0 (i : S128x11008.Idx) (q : dot_S128x512_S512x11008_S128x11008_1_0_0_1_n_n.contr.Idx) :
    (dot_S128x512_S512x11008_S128x11008_1_0_0_1_n_n.lhsIdx i q 0).val = (i 0).val := by
  unfold DotDims.lhsIdx
  rw [dif_neg (show ¬(0 : Fin S128x512.rank) ∈ dot_S128x512_S512x11008_S128x11008_1_0_0_1_n_n.lhsBatch by decide),
    dif_pos (show (0 : Fin S128x512.rank) ∈ dot_S128x512_S512x11008_S128x11008_1_0_0_1_n_n.lhsNonContracting by decide)]
  rfl

/-- Axis 1 of the left operand's index is the contraction index. -/
theorem lhs_tileDot_1 (i : S128x11008.Idx) (q : dot_S128x512_S512x11008_S128x11008_1_0_0_1_n_n.contr.Idx) :
    (dot_S128x512_S512x11008_S128x11008_1_0_0_1_n_n.lhsIdx i q 1).val = (q ⟨0, by decide⟩).val :=
  dot_S128x512_S512x11008_S128x11008_1_0_0_1_n_n.lhsIdx_val_of_single rfl i q

/-- Axis 0 of the right operand's index is the contraction index. -/
theorem rhs_tileDot_0 (i : S128x11008.Idx) (q : dot_S128x512_S512x11008_S128x11008_1_0_0_1_n_n.contr.Idx) :
    (dot_S128x512_S512x11008_S128x11008_1_0_0_1_n_n.rhsIdx i q 0).val = (q ⟨0, by decide⟩).val :=
  dot_S128x512_S512x11008_S128x11008_1_0_0_1_n_n.rhsIdx_val_of_single rfl i q

/-- Axis 1 of the right operand's index is the output column. -/
theorem rhs_tileDot_1 (i : S128x11008.Idx) (q : dot_S128x512_S512x11008_S128x11008_1_0_0_1_n_n.contr.Idx) :
    (dot_S128x512_S512x11008_S128x11008_1_0_0_1_n_n.rhsIdx i q 1).val = (i 1).val := by
  unfold DotDims.rhsIdx
  rw [dif_neg (show ¬(1 : Fin S512x11008.rank) ∈ dot_S128x512_S512x11008_S128x11008_1_0_0_1_n_n.rhsBatch by decide),
    dif_pos (show (1 : Fin S512x11008.rank) ∈ dot_S128x512_S512x11008_S128x11008_1_0_0_1_n_n.rhsNonContracting by decide)]
  rfl

/-- The product into the zero accumulator at entry (r, n): the sum over k < 512 of x(r, k) · w(k, n). -/
theorem tileDot_apply (x : FVec Ideal S128x512 .bf16) (w : FVec Ideal S512x11008 .bf16) (r : Fin 128) (n : Fin 11008) :
    matmul dot_S128x512_S512x11008_S128x11008_1_0_0_1_n_n none x w (constant (F := Ideal) S128x11008 .f32 0x00000000#32) (ix2 r n)
      = ∑ k : Fin 512, x (ix2 r k) * w (ix2 k n) := by
  simp only [matmul]
  -- into a zero accumulator the product is the sum over the contraction index; that index has one axis, of extent
  -- 512, so the sum is re-indexed by k < 512
  rw [Ideal.matmul_constant_zero_apply,
    ← Equiv.sum_comp (contrEquiv1 dot_S128x512_S512x11008_S128x11008_1_0_0_1_n_n 512 rfl rfl).symm]
  refine Finset.sum_congr rfl fun k _ => ?_
  have hk := contrEquiv1_symm_val dot_S128x512_S512x11008_S128x11008_1_0_0_1_n_n 512 rfl rfl k
  -- the left operand is read at (r, k) …
  have el : dot_S128x512_S512x11008_S128x11008_1_0_0_1_n_n.lhsIdx (ix2 r n)
      ((contrEquiv1 dot_S128x512_S512x11008_S128x11008_1_0_0_1_n_n 512 rfl rfl).symm k) = ix2 r k :=
    funext fun a => Fin.ext (by
      match a with
      | ⟨0, _⟩ => exact lhs_tileDot_0 _ _
      | ⟨1, _⟩ => exact (lhs_tileDot_1 _ _).trans hk)
  -- … and the right operand at (k, n)
  have er : dot_S128x512_S512x11008_S128x11008_1_0_0_1_n_n.rhsIdx (ix2 r n)
      ((contrEquiv1 dot_S128x512_S512x11008_S128x11008_1_0_0_1_n_n 512 rfl rfl).symm k) = ix2 k n :=
    funext fun a => Fin.ext (by
      match a with
      | ⟨0, _⟩ => exact (rhs_tileDot_0 _ _).trans hk
      | ⟨1, _⟩ => exact rhs_tileDot_1 _ _)
  rw [el, er]

/-! ## The accumulator update -/

/-- The update payload with its weight tile named: the accumulator plus the product of the activation block and the
    tile (both operands after a format change that is the identity over the extended reals), through an identity cast. -/
theorem pay3_eq (wp : Vec Ideal S256x11008 .i32) (sb zb : Vec Ideal S4x11008 .f32) (xb : Vec Ideal S128x512 .f32)
    (acc : Vec Ideal S128x11008 .f32) :
    k0_pay3 (F := Ideal) wp sb zb xb acc
      = shapeCast S128x11008
          (addf acc (matmul dot_S128x512_S512x11008_S128x11008_1_0_0_1_n_n none
            (truncf .bf16 xb bitsLt_bf16_f32 : FVec Ideal S128x512 .bf16)
            (truncf .bf16 (wtile wp sb zb) bitsLt_bf16_f32 : FVec Ideal S512x11008 .bf16)
            (constant (F := Ideal) S128x11008 .f32 0x00000000#32)))
          shapeCasts_S128x11008_S128x11008 := rfl

/-- The accumulator update at an entry: what the accumulator held (`acc`), plus the partial sum over the tile's 512
    reduction indices of the activation block `xb` times the dequantised weight tile — nibble `j'` of packed block `wp`
    (row `j' / 2`), with row `j' / 128` of the zero-point block `zb` and of the scale block `sb`. -/
theorem update_apply (wp : Vec Ideal S256x11008 .i32) (sb zb : Vec Ideal S4x11008 .f32) (xb : Vec Ideal S128x512 .f32)
    (acc : Vec Ideal S128x11008 .f32) (r : Fin 128) (n : Fin 11008) :
    k0_pay3 (F := Ideal) wp sb zb xb acc (ix2 r n)
      = acc (ix2 r n) + ∑ j' : Fin 512, xb (ix2 r j')
          * dequant (nibbleOf (wp (ix2 (⟨j'.val / 2, by have := j'.isLt; omega⟩ : Fin 256) n)) j'.val)
              (zb (ix2 (⟨j'.val / 128, by have := j'.isLt; omega⟩ : Fin 4) n))
              (sb (ix2 (⟨j'.val / 128, by have := j'.isLt; omega⟩ : Fin 4) n)) := by
  -- the outer cast is to the same shape, and the sum with the accumulator is entrywise
  rw [pay3_eq, shapeCast_self, addf_apply]
  refine congrArg (acc (ix2 r n) + ·) ?_
  -- the product at (r, n) is the sum over the 512 contraction indices
  rw [tileDot_apply]
  refine Finset.sum_congr rfl fun j' _ => ?_
  -- the format change of each operand is the identity, and the tile's entry is the dequantised weight
  rw [truncf_apply, truncf_apply, wtile_apply]

/-- The output store at an entry: the accumulator plus the bias row's entry in that column. -/
theorem emit_apply (acc : Vec Ideal S128x11008 .f32) (bb : Vec Ideal S1x11008 .f32) (r : Fin 128) (n : Fin 11008) :
    k0_pay1 (F := Ideal) acc bb (ix2 r n) = acc (ix2 r n) + bb (ix2 (0 : Fin 1) n) := by
  unfold k0_pay1
  -- the bias row's cast to its own shape is the identity
  rw [shapeCast_self]
  -- the sum is entrywise; the one bias row is laid along all 128 rows, so row r reads row 0
  refine congrArg (acc (ix2 r n) + ·) ?_
  refine broadcastTo_apply bb _ (ix2 r n) (ix2 (0 : Fin 1) n) (fun a => ?_)
  match a with
  | ⟨0, _⟩ => rfl
  | ⟨1, _⟩ => rfl

end Cert.Int4Linear.Tile

end
-- ==== Proof.Pieces.lean ====
/-
  What each control case of the kernel body leaves behind, as the body's stored values of the point's input blocks.

  The body keeps a 128 × 11008 accumulator across the eight reduction points of a row tile. At the first of them it
  stores zero and then the update of that zero; at the others the update of what the point before left; at the last
  it also stores the accumulator plus the bias row into the output block. The update reads, of the 32-row scale and
  zero-point arrays, the four rows of the point's reduction tile.
-/
import proofs.«424205_j73778948211032_1_alg».proof.Proof.Gen.KernelIdeal.Frame
import Idealize.ShloMosaic.Lib.Pipeline.Value

set_option maxRecDepth 16384

noncomputable section

namespace Cert.Int4Linear.Pieces

open Idealize.ShloMosaic Idealize.ShloMosaic.TcCoe Idealize.ShloMosaic.Tactic
open Idealize.SL Idealize.SL.Sem
open Cert.KernelIdeal Cert.KernelIdeal.Gen

variable {F : FTy → Type} [FloatOps F]

/-- The offsets `![0, 0]` of a whole-buffer access are the zero offsets. -/
theorem zero2 : (![0, 0] : Fin 2 → Nat) = fun _ => 0 :=
  funext fun a => by match a with | ⟨0, _⟩ => rfl | ⟨1, _⟩ => rfl

/-- The four rows of a 32-row per-group array that the point with coordinates `i` loads: rows `4·(i 1)` to
    `4·(i 1) + 3`, all columns. -/
abbrev groupRows (i : grid0.Coords) (X : Vec F S32x11008 .f32) : Vec F S4x11008 .f32 :=
  View.ld X (Rect.unit (s := S32x11008) (k0_off1 i) S4x11008.size (k0_off1_inb i))

/-- First point of a row tile: the accumulator ends at the update of the zero it was reset to. -/
theorem scratch_first (c : Dev nD) (i : grid0.Coords) (arg2 : Memref sig .tc .vmem S128x512 .f32) (harg2 : arg2.IsWhole) (arg3 : Memref sig .tc .vmem S256x11008 .i32) (harg3 : arg3.IsWhole) (arg4 : Memref sig .tc .vmem S32x11008 .f32) (harg4 : arg4.IsWhole) (arg5 : Memref sig .tc .vmem S32x11008 .f32) (harg5 : arg5.IsWhole) (arg6 : Memref sig .tc .vmem S1x11008 .f32) (harg6 : arg6.IsWhole) (arg7 : Memref sig .tc .vmem S128x11008 .f32) (harg7 : arg7.IsWhole) (arg8 : Memref sig .tc .vmem S128x11008 .f32) (harg8 : arg8.IsWhole) (hc0 : cond0_0 i) (hc1 : ¬cond0_1 i) (x0 : Vec F S128x512 .f32) (x1 : Vec F S256x11008 .i32) (x2 : Vec F S32x11008 .f32) (x3 : Vec F S32x11008 .f32) (x4 : Vec F S1x11008 .f32) :
    sout0_A_0 c i arg2 harg2 arg3 harg3 arg4 harg4 arg5 harg5 arg6 harg6 arg7 harg7 arg8 harg8 hc0 hc1 x0 x1 x2 x3 x4 = k0_pay3 x1 (groupRows i x2) (groupRows i x3) x0 (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A; dsimp only; sl_unfold_words
  rw [View.canon_cons_unit_zero (S := S128x11008) zero2, View.readCov_unit_zero (S := S128x11008) _ zero2]
  simp only [View.readAt_eq_ld, harg2.read_unread, harg3.read_unread, harg4.read_unread, harg5.read_unread,
    View.ld_unit_zero (S := S128x512) zero2, View.ld_unit_zero (S := S256x11008) zero2]
  rfl

/-- A middle point of a row tile: the accumulator ends at the update of what the point before left in it. -/
theorem scratch_mid (c : Dev nD) (i : grid0.Coords) (arg2 : Memref sig .tc .vmem S128x512 .f32) (harg2 : arg2.IsWhole) (arg3 : Memref sig .tc .vmem S256x11008 .i32) (harg3 : arg3.IsWhole) (arg4 : Memref sig .tc .vmem S32x11008 .f32) (harg4 : arg4.IsWhole) (arg5 : Memref sig .tc .vmem S32x11008 .f32) (harg5 : arg5.IsWhole) (arg6 : Memref sig .tc .vmem S1x11008 .f32) (harg6 : arg6.IsWhole) (arg7 : Memref sig .tc .vmem S128x11008 .f32) (harg7 : arg7.IsWhole) (arg8 : Memref sig .tc .vmem S128x11008 .f32) (harg8 : arg8.IsWhole) (hc0 : ¬cond0_0 i) (hc1 : ¬cond0_1 i) (x0 : Vec F S128x512 .f32) (x1 : Vec F S256x11008 .i32) (x2 : Vec F S32x11008 .f32) (x3 : Vec F S32x11008 .f32) (x4 : Vec F S1x11008 .f32) (xs0 : Vec F S128x11008 .f32) :
    sout0_B_0 c i arg2 harg2 arg3 harg3 arg4 harg4 arg5 harg5 arg6 harg6 arg7 harg7 arg8 harg8 hc0 hc1 x0 x1 x2 x3 x4 xs0 = k0_pay3 x1 (groupRows i x2) (groupRows i x3) x0 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B; dsimp only; sl_unfold_words
  rw [View.canon_unit_zero (S := S128x11008) zero2]
  simp only [View.readAt_eq_ld, harg2.read_unread, harg3.read_unread, harg4.read_unread, harg5.read_unread, harg8.read_unread,
    View.ld_unit_zero (S := S128x512) zero2, View.ld_unit_zero (S := S256x11008) zero2, View.ld_unit_zero (S := S128x11008) zero2]
  rfl

/-- The last point of a row tile: the accumulator is updated in the same way, -/
theorem scratch_last (c : Dev nD) (i : grid0.Coords) (arg2 : Memref sig .tc .vmem S128x512 .f32) (harg2 : arg2.IsWhole) (arg3 : Memref sig .tc .vmem S256x11008 .i32) (harg3 : arg3.IsWhole) (arg4 : Memref sig .tc .vmem S32x11008 .f32) (harg4 : arg4.IsWhole) (arg5 : Memref sig .tc .vmem S32x11008 .f32) (harg5 : arg5.IsWhole) (arg6 : Memref sig .tc .vmem S1x11008 .f32) (harg6 : arg6.IsWhole) (arg7 : Memref sig .tc .vmem S128x11008 .f32) (harg7 : arg7.IsWhole) (arg8 : Memref sig .tc .vmem S128x11008 .f32) (harg8 : arg8.IsWhole) (hc0 : ¬cond0_0 i) (hc1 : cond0_1 i) (x0 : Vec F S128x512 .f32) (x1 : Vec F S256x11008 .i32) (x2 : Vec F S32x11008 .f32) (x3 : Vec F S32x11008 .f32) (x4 : Vec F S1x11008 .f32) (xs0 : Vec F S128x11008 .f32) :
    sout0_C_0 c i arg2 harg2 arg3 harg3 arg4 harg4 arg5 harg5 arg6 harg6 arg7 harg7 arg8 harg8 hc0 hc1 x0 x1 x2 x3 x4 xs0 = k0_pay3 x1 (groupRows i x2) (groupRows i x3) x0 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C; dsimp only; sl_unfold_words
  rw [View.canon_unit_zero (S := S128x11008) zero2]
  simp only [View.readAt_eq_ld, harg2.read_unread, harg3.read_unread, harg4.read_unread, harg5.read_unread, harg8.read_unread,
    View.ld_unit_zero (S := S128x512) zero2, View.ld_unit_zero (S := S256x11008) zero2, View.ld_unit_zero (S := S128x11008) zero2]
  rfl

/-- and the output block receives the updated accumulator plus the bias row. -/
theorem out_last (c : Dev nD) (i : grid0.Coords) (arg2 : Memref sig .tc .vmem S128x512 .f32) (harg2 : arg2.IsWhole) (arg3 : Memref sig .tc .vmem S256x11008 .i32) (harg3 : arg3.IsWhole) (arg4 : Memref sig .tc .vmem S32x11008 .f32) (harg4 : arg4.IsWhole) (arg5 : Memref sig .tc .vmem S32x11008 .f32) (harg5 : arg5.IsWhole) (arg6 : Memref sig .tc .vmem S1x11008 .f32) (harg6 : arg6.IsWhole) (arg7 : Memref sig .tc .vmem S128x11008 .f32) (harg7 : arg7.IsWhole) (arg8 : Memref sig .tc .vmem S128x11008 .f32) (harg8 : arg8.IsWhole) (hc0 : ¬cond0_0 i) (hc1 : cond0_1 i) (x0 : Vec F S128x512 .f32) (x1 : Vec F S256x11008 .i32) (x2 : Vec F S32x11008 .f32) (x3 : Vec F S32x11008 .f32) (x4 : Vec F S1x11008 .f32) (xs0 : Vec F S128x11008 .f32) :
    out0_C_5 c i arg2 harg2 arg3 harg3 arg4 harg4 arg5 harg5 arg6 harg6 arg7 harg7 arg8 harg8 hc0 hc1 x0 x1 x2 x3 x4 xs0 = k0_pay1 (k0_pay3 x1 (groupRows i x2) (groupRows i x3) x0 xs0) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C; dsimp only; sl_unfold_words
  rw [View.canon_unit_zero (S := S128x11008) zero2, View.readCov_unit_zero (S := S128x11008) _ zero2]
  simp only [View.readAt_eq_ld, harg2.read_unread, harg3.read_unread, harg4.read_unread, harg5.read_unread, harg6.read_unread, harg8.read_unread,
    View.ld_unit_zero (S := S128x512) zero2, View.ld_unit_zero (S := S256x11008) zero2, View.ld_unit_zero (S := S128x11008) zero2,
    View.ld_unit_zero (S := S1x11008) zero2]
  rfl

end Cert.Int4Linear.Pieces

end
-- ==== Proof.Blocks.lean ====
/-
  The input blocks of a grid point, entry by entry, in the arrays' own coordinates.

  The grid is 32 row tiles by 8 reduction tiles, in row-major order: point t is row tile t / 8, reduction tile t % 8.
  There the activation block holds rows 128·(t / 8) + r and columns 512·(t % 8) + j' of the activations, the packed
  block rows 256·(t % 8) + p of the packed words, the scale and zero-point blocks are the whole arrays (of which the body
  loads rows 4·(t % 8) + g), and the bias block is the one-row matrix the bias vector was reshaped to before the launch.
-/
import proofs.«424205_j73778948211032_1_alg».proof.Proof.Pieces
import Idealize.ShloMosaic.Lib.Pipeline.Value
import Idealize.ShloMosaic.Lib.ValueIdx
import Idealize.ShloMosaic.Lib.StableHlo.Run

set_option maxRecDepth 16384

noncomputable section

namespace Cert.Int4Linear.Blocks

open Idealize.ShloMosaic Idealize.ShloMosaic.TcCoe Idealize.ShloMosaic.ValueIdx
open Idealize.SL Idealize.SL.Sem
open Cert.KernelIdeal Cert.KernelIdeal.Gen Cert.Int4Linear.Pieces

variable {F : FTy → Type} [FloatOps F]
variable (m : (ℓ : Loc nD τ sig) → Buf (Elt F) ℓ)

/-! ## The grid and the index maps, decided once over the 256 points -/

/-- Point `t` is row tile `t / 8`, reduction tile `t % 8`. -/
theorem coords_val : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The activation window's block index is (row tile, reduction tile). -/
theorem index_x : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)

/-- The packed-weight window's block index is (reduction tile, 0). -/
theorem index_p : ∀ t : Fin cfg0.N, win0_1.index t 0 = t.val % 8 ∧ win0_1.index t 1 = 0 :=
  (by decide +kernel : ∀ t : Fin grid0.N, win0_1.index t 0 = t.val % 8 ∧ win0_1.index t 1 = 0)

/-- The scale, zero-point and bias windows never move. -/
theorem index_s : ∀ t : Fin cfg0.N, win0_2.index t 0 = 0 ∧ win0_2.index t 1 = 0 :=
  (by decide +kernel : ∀ t : Fin grid0.N, win0_2.index t 0 = 0 ∧ win0_2.index t 1 = 0)
theorem index_z : ∀ t : Fin cfg0.N, win0_3.index t 0 = 0 ∧ win0_3.index t 1 = 0 :=
  (by decide +kernel : ∀ t : Fin grid0.N, win0_3.index t 0 = 0 ∧ win0_3.index t 1 = 0)
theorem index_b : ∀ t : Fin cfg0.N, win0_4.index t 0 = 0 ∧ win0_4.index t 1 = 0 :=
  (by decide +kernel : ∀ t : Fin grid0.N, win0_4.index t 0 = 0 ∧ win0_4.index t 1 = 0)

/-- The result window's block index is (row tile, 0). -/
theorem index_o : ∀ t : Fin cfg0.N, win0_5.index t 0 = t.val / 8 ∧ win0_5.index t 1 = 0 :=
  (by decide +kernel : ∀ t : Fin grid0.N, win0_5.index t 0 = t.val / 8 ∧ win0_5.index t 1 = 0)

/-- The body's group rows start at row `4·(t % 8)`, column 0. -/
theorem off_rows : ∀ t : Fin cfg0.N, k0_off1 (grid0.coords t) 0 = 4 * (t.val % 8) ∧ k0_off1 (grid0.coords t) 1 = 0 :=
  (by decide +kernel : ∀ t : Fin grid0.N, k0_off1 (grid0.coords t) 0 = 4 * (t.val % 8) ∧ k0_off1 (grid0.coords t) 1 = 0)

theorem lt_N (t : Fin cfg0.N) : t.val < 256 := lt_of_lt_of_eq t.isLt (show cfg0.N = 256 from N_0)

/-! ## The arrays as the region finds them, and the point's blocks, by their literal types -/

abbrev actArr (c : Dev nD) : Vec F S4096x4096 .f32 := V m c main_arg0
abbrev packedArr (c : Dev nD) : Vec F S2048x11008 .i32 := V m c main_arg1
abbrev scaleArr (c : Dev nD) : Vec F S32x11008 .f32 := V m c main_arg2
abbrev zeroArr (c : Dev nD) : Vec F S32x11008 .f32 := V m c main_arg3
abbrev biasRow (c : Dev nD) : Vec F S1x11008 .f32 := V m c main_v0

abbrev actBlk (c : Dev nD) (t : Fin cfg0.N) : Vec F S128x512 .f32 := iblk m c 0 t
abbrev packedBlk (c : Dev nD) (t : Fin cfg0.N) : Vec F S256x11008 .i32 := iblk m c 1 t
abbrev scaleBlk (c : Dev nD) (t : Fin cfg0.N) : Vec F S32x11008 .f32 := iblk m c 2 t
abbrev zeroBlk (c : Dev nD) (t : Fin cfg0.N) : Vec F S32x11008 .f32 := iblk m c 3 t
abbrev biasBlk (c : Dev nD) (t : Fin cfg0.N) : Vec F S1x11008 .f32 := iblk m c 4 t

/-- The activation block at `(r, j')` is the activations at `(128·(t / 8) + r, 512·(t % 8) + j')`. -/
theorem actBlk_apply (c : Dev nD) (t : Fin cfg0.N) (r : Fin 128) (j' : Fin 512) :
    actBlk m c t (ix2 r j') = actArr m c (ix2 (⟨128 * (t.val / 8) + r.val, by have := lt_N t; have := r.isLt; omega⟩ : Fin 4096)
      (⟨512 * (t.val % 8) + j'.val, by have := j'.isLt; omega⟩ : Fin 4096)) := by
  unfold actBlk actArr iblk
  rw [View.read_apply]
  show V m c main_arg0 _ = V m c main_arg0 _
  congr 1
  funext a
  apply Fin.ext
  match a with
  | ⟨0, _⟩ => show win0_0.index t 0 * 128 + 1 * r.val = 128 * (t.val / 8) + r.val; rw [(index_x t).1]; omega
  | ⟨1, _⟩ => show win0_0.index t 1 * 512 + 1 * j'.val = 512 * (t.val % 8) + j'.val; rw [(index_x t).2]; omega

/-- The packed block at `(p, n)` is the packed words at `(256·(t % 8) + p, n)`. -/
theorem packedBlk_apply (c : Dev nD) (t : Fin cfg0.N) (p : Fin 256) (n : Fin 11008) :
    packedBlk m c t (ix2 p n) = packedArr m c (ix2 (⟨256 * (t.val % 8) + p.val, by have := p.isLt; omega⟩ : Fin 2048) n) := by
  unfold packedBlk packedArr iblk
  rw [View.read_apply]
  show V m c main_arg1 _ = V m c main_arg1 _
  congr 1
  funext a
  apply Fin.ext
  match a with
  | ⟨0, _⟩ => show win0_1.index t 0 * 256 + 1 * p.val = 256 * (t.val % 8) + p.val; rw [(index_p t).1]; omega
  | ⟨1, _⟩ => show win0_1.index t 1 * 11008 + 1 * n.val = n.val; rw [(index_p t).2]; omega

/-- The scale block is the whole scale array. -/
theorem scaleBlk_apply (c : Dev nD) (t : Fin cfg0.N) (g : Fin 32) (n : Fin 11008) :
    scaleBlk m c t (ix2 g n) = scaleArr m c (ix2 g n) := by
  unfold scaleBlk scaleArr iblk
  rw [View.read_apply]
  show V m c main_arg2 _ = V m c main_arg2 _
  congr 1
  funext a
  apply Fin.ext
  match a with
  | ⟨0, _⟩ => show win0_2.index t 0 * 32 + 1 * g.val = g.val; rw [(index_s t).1]; omega
  | ⟨1, _⟩ => show win0_2.index t 1 * 11008 + 1 * n.val = n.val; rw [(index_s t).2]; omega

/-- The zero-point block is the whole zero-point array. -/
theorem zeroBlk_apply (c : Dev nD) (t : Fin cfg0.N) (g : Fin 32) (n : Fin 11008) :
    zeroBlk m c t (ix2 g n) = zeroArr m c (ix2 g n) := by
  unfold zeroBlk zeroArr iblk
  rw [View.read_apply]
  show V m c main_arg3 _ = V m c main_arg3 _
  congr 1
  funext a
  apply Fin.ext
  match a with
  | ⟨0, _⟩ => show win0_3.index t 0 * 32 + 1 * g.val = g.val; rw [(index_z t).1]; omega
  | ⟨1, _⟩ => show win0_3.index t 1 * 11008 + 1 * n.val = n.val; rw [(index_z t).2]; omega

/-- The bias block is the whole one-row bias matrix. -/
theorem biasBlk_apply (c : Dev nD) (t : Fin cfg0.N) (n : Fin 11008) :
    biasBlk m c t (ix2 (0 : Fin 1) n) = biasRow m c (ix2 (0 : Fin 1) n) := by
  unfold biasBlk biasRow iblk
  rw [View.read_apply]
  show V m c main_v0 _ = V m c main_v0 _
  congr 1
  funext a
  apply Fin.ext
  match a with
  | ⟨0, _⟩ => show win0_4.index t 0 * 1 + 1 * (0 : Fin 1).val = (0 : Fin 1).val; rw [(index_b t).1]; rfl
  | ⟨1, _⟩ => show win0_4.index t 1 * 11008 + 1 * n.val = n.val; rw [(index_b t).2]; omega

/-- The four group rows the body loads at point `t`, at `(g, n)`: row `4·(t % 8) + g` of the 32-row array. -/
theorem groupRows_apply (t : Fin cfg0.N) (X : Vec F S32x11008 .f32) (g : Fin 4) (n : Fin 11008) :
    groupRows (grid0.coords t) X (ix2 g n) = X (ix2 (⟨4 * (t.val % 8) + g.val, by have := g.isLt; omega⟩ : Fin 32) n) := by
  show X _ = X _
  congr 1
  funext a
  apply Fin.ext
  match a with
  | ⟨0, _⟩ => show k0_off1 (grid0.coords t) 0 + 1 * g.val = 4 * (t.val % 8) + g.val; rw [(off_rows t).1]; omega
  | ⟨1, _⟩ => show k0_off1 (grid0.coords t) 1 + 1 * n.val = n.val; rw [(off_rows t).2]; omega

end Cert.Int4Linear.Blocks

end
-- ==== Proof.Accum.lean ====
/-
  The accumulator across the eight reduction points of a row tile.

  At point t (row tile q = t / 8, reduction tile k = t % 8) the body's update adds, to entry (r, n) of what the
  accumulator held, the tile's partial sum  Σ_{j' < 512} x(128 q + r, 512 k + j') · w(512 k + j', n)  of the layer's
  reduction. The first point of a row tile updates the zero it has just stored, every later point what the point
  before left. So after point t the accumulator holds, at (r, n), the sum of the partial sums of tiles 0 … t % 8.
-/
import proofs.«424205_j73778948211032_1_alg».proof.Proof.Spec
import proofs.«424205_j73778948211032_1_alg».proof.Proof.TilePayload
import proofs.«424205_j73778948211032_1_alg».proof.Proof.Blocks
import proofs.«424205_j73778948211032_1_alg».proof.Proof.Gen.KernelIdeal.Value

set_option maxRecDepth 16384

noncomputable section

open scoped BigOperators

namespace Cert.Int4Linear.Accum

open Idealize.ShloMosaic Idealize.ShloMosaic.TcCoe Idealize.ShloMosaic.ValueIdx
open Idealize.SL Idealize.SL.Sem
open Cert.KernelIdeal Cert.KernelIdeal.Gen Cert.KernelIdeal.Value
open Cert.Int4Linear Cert.Int4Linear.Pieces Cert.Int4Linear.Blocks

variable (m : (ℓ : Loc nD τ sig) → Buf (Elt Ideal) ℓ)

/-- The nibble a weight row reads depends on the row's parity only, and a tile starts at an even row. -/
theorem nibbleOf_tile (w : BitVec 32) (k j' : ℕ) : nibbleOf w (512 * k + j') = nibbleOf w j' := by
  unfold nibbleOf
  rw [show (512 * k + j') % 2 = j' % 2 by omega]

/-- What reduction tile `t % 8` adds to entry `(r, n)` of row tile `t / 8`'s accumulator, over the arrays as the launch
    finds them. -/
abbrev addend (c : Dev nD) (p : ℕ) (r : Fin 128) (n : Fin 11008) : EReal :=
  tileTerm (actArr m c) (packedArr m c) (scaleArr m c) (zeroArr m c) (p / 8) (p % 8) r n

/-- THE UPDATE at point `t`, in the arrays' coordinates: the accumulator's entry plus the tile's partial sum. -/
theorem update_point (c : Dev nD) (t : Fin cfg0.N) (acc : Vec Ideal S128x11008 .f32) (r : Fin 128) (n : Fin 11008) :
    k0_pay3 (F := Ideal) (packedBlk m c t) (groupRows (grid0.coords t) (scaleBlk m c t))
        (groupRows (grid0.coords t) (zeroBlk m c t)) (actBlk m c t) acc (ix2 r n)
      = acc (ix2 r n) + addend m c t.val r n := by
  have ht := lt_N t
  have hr := r.isLt
  rw [Tile.update_apply]
  refine congrArg (acc (ix2 r n) + ·) ?_
  unfold addend tileTerm
  refine Finset.sum_congr rfl fun j' _ => ?_
  have hj := j'.isLt
  rw [dif_pos ⟨by omega, by omega⟩, actBlk_apply, packedBlk_apply, groupRows_apply, groupRows_apply, scaleBlk_apply,
    zeroBlk_apply]
  unfold weight
  rw [nibbleOf_tile]
  have e2 : (⟨256 * (t.val % 8) + j'.val / 2, by omega⟩ : Fin 2048) = ⟨(512 * (t.val % 8) + j'.val) / 2, by omega⟩ :=
    Fin.ext (by show 256 * (t.val % 8) + j'.val / 2 = (512 * (t.val % 8) + j'.val) / 2; omega)
  have e128 : (⟨4 * (t.val % 8) + j'.val / 128, by omega⟩ : Fin 32) = ⟨(512 * (t.val % 8) + j'.val) / 128, by omega⟩ :=
    Fin.ext (by show 4 * (t.val % 8) + j'.val / 128 = (512 * (t.val % 8) + j'.val) / 128; omega)
  rw [e2, e128]

/-- The step of the accumulator at the first point of a row tile: whatever it held, it ends at that tile's partial
    sum (the update of the zero just stored). -/
theorem step_first (c : Dev nD) (p : ℕ) (hp : p < cfg0.N) (h0 : p % 8 = 0) (acc : Vec Ideal S128x11008 .f32)
    (r : Fin 128) (n : Fin 11008) : scAt0_0 m c p hp acc (ix2 r n) = 0 + addend m c p r n := by
  have h1 : ¬p % 8 = 7 := by omega
  unfold scAt0_0
  rw [dif_pos h0, dif_neg h1]
  rw [scratch_first c (grid0.coords (⟨p, hp⟩ : Fin cfg0.N)) (ms0_0 (⟨p, hp⟩ : Fin cfg0.N)) (hs0_0 (⟨p, hp⟩ : Fin cfg0.N)) (ms0_1 (⟨p, hp⟩ : Fin cfg0.N)) (hs0_1 (⟨p, hp⟩ : Fin cfg0.N)) (ms0_2 (⟨p, hp⟩ : Fin cfg0.N)) (hs0_2 (⟨p, hp⟩ : Fin cfg0.N)) (ms0_3 (⟨p, hp⟩ : Fin cfg0.N)) (hs0_3 (⟨p, hp⟩ : Fin cfg0.N)) (ms0_4 (⟨p, hp⟩ : Fin cfg0.N)) (hs0_4 (⟨p, hp⟩ : Fin cfg0.N)) (ms0_5 (⟨p, hp⟩ : Fin cfg0.N)) (hs0_5 (⟨p, hp⟩ : Fin cfg0.N)) scM0_0 (Memref.isWhole_whole _) _ _ (iblk m c 0 (⟨p, hp⟩ : Fin cfg0.N)) (iblk m c 1 (⟨p, hp⟩ : Fin cfg0.N)) (iblk m c 2 (⟨p, hp⟩ : Fin cfg0.N)) (iblk m c 3 (⟨p, hp⟩ : Fin cfg0.N)) (iblk m c 4 (⟨p, hp⟩ : Fin cfg0.N))]
  rw [update_point m c (⟨p, hp⟩ : Fin cfg0.N) (k0_pay2 (F := Ideal)) r n, Tile.reset_apply]

/-- The step at any later point of the row tile: what the point before left, plus this tile's partial sum. -/
theorem step_later (c : Dev nD) (p : ℕ) (hp : p < cfg0.N) (h0 : ¬p % 8 = 0) (acc : Vec Ideal S128x11008 .f32)
    (r : Fin 128) (n : Fin 11008) : scAt0_0 m c p hp acc (ix2 r n) = acc (ix2 r n) + addend m c p r n := by
  unfold scAt0_0
  rw [dif_neg h0]
  by_cases h1 : p % 8 = 7
  · rw [dif_pos h1]
    rw [scratch_last c (grid0.coords (⟨p, hp⟩ : Fin cfg0.N)) (ms0_0 (⟨p, hp⟩ : Fin cfg0.N)) (hs0_0 (⟨p, hp⟩ : Fin cfg0.N)) (ms0_1 (⟨p, hp⟩ : Fin cfg0.N)) (hs0_1 (⟨p, hp⟩ : Fin cfg0.N)) (ms0_2 (⟨p, hp⟩ : Fin cfg0.N)) (hs0_2 (⟨p, hp⟩ : Fin cfg0.N)) (ms0_3 (⟨p, hp⟩ : Fin cfg0.N)) (hs0_3 (⟨p, hp⟩ : Fin cfg0.N)) (ms0_4 (⟨p, hp⟩ : Fin cfg0.N)) (hs0_4 (⟨p, hp⟩ : Fin cfg0.N)) (ms0_5 (⟨p, hp⟩ : Fin cfg0.N)) (hs0_5 (⟨p, hp⟩ : Fin cfg0.N)) scM0_0 (Memref.isWhole_whole _) _ _ (iblk m c 0 (⟨p, hp⟩ : Fin cfg0.N)) (iblk m c 1 (⟨p, hp⟩ : Fin cfg0.N)) (iblk m c 2 (⟨p, hp⟩ : Fin cfg0.N)) (iblk m c 3 (⟨p, hp⟩ : Fin cfg0.N)) (iblk m c 4 (⟨p, hp⟩ : Fin cfg0.N)) acc]
    exact update_point m c (⟨p, hp⟩ : Fin cfg0.N) acc r n
  · rw [dif_neg h1]
    rw [scratch_mid c (grid0.coords (⟨p, hp⟩ : Fin cfg0.N)) (ms0_0 (⟨p, hp⟩ : Fin cfg0.N)) (hs0_0 (⟨p, hp⟩ : Fin cfg0.N)) (ms0_1 (⟨p, hp⟩ : Fin cfg0.N)) (hs0_1 (⟨p, hp⟩ : Fin cfg0.N)) (ms0_2 (⟨p, hp⟩ : Fin cfg0.N)) (hs0_2 (⟨p, hp⟩ : Fin cfg0.N)) (ms0_3 (⟨p, hp⟩ : Fin cfg0.N)) (hs0_3 (⟨p, hp⟩ : Fin cfg0.N)) (ms0_4 (⟨p, hp⟩ : Fin cfg0.N)) (hs0_4 (⟨p, hp⟩ : Fin cfg0.N)) (ms0_5 (⟨p, hp⟩ : Fin cfg0.N)) (hs0_5 (⟨p, hp⟩ : Fin cfg0.N)) scM0_0 (Memref.isWhole_whole _) _ _ (iblk m c 0 (⟨p, hp⟩ : Fin cfg0.N)) (iblk m c 1 (⟨p, hp⟩ : Fin cfg0.N)) (iblk m c 2 (⟨p, hp⟩ : Fin cfg0.N)) (iblk m c 3 (⟨p, hp⟩ : Fin cfg0.N)) (iblk m c 4 (⟨p, hp⟩ : Fin cfg0.N)) acc]
    exact update_point m c (⟨p, hp⟩ : Fin cfg0.N) acc r n

/-- AFTER POINT `t` the accumulator holds, at `(r, n)`, the partial sums of reduction tiles `0 … t % 8` of row tile
    `t / 8`: the fold of the steps from the row tile's first point. -/
theorem scratch_after (c : Dev nD) (t : Fin cfg0.N) (r : Fin 128) (n : Fin 11008) :
    (outsAt0 m c t.val t.isLt).2 (ix2 r n)
      = ∑ s ∈ Finset.range (t.val % 8 + 1),
          tileTerm (actArr m c) (packedArr m c) (scaleArr m c) (zeroArr m c) (t.val / 8) s r n := by
  have ht := lt_N t
  have hN : cfg0.N = 256 := N_0
  rw [soutsAt0_0_eq m c t]
  rw [Pipeline.accAt_add_apply (N := cfg0.N) (fun n h => scAt0_0 m c n h (VS0_0.read (Elt Ideal) VS0_0.junk)) (scAt0_0 m c)
    (fun _ => (0 : EReal)) (fun p (idx : S128x11008.Idx) => addend m c p (idx 0) (idx 1)) (8 * (t.val / 8)) 7
    (fun h idx => by
      obtain ⟨r', n', rfl⟩ : ∃ (r' : Fin 128) (n' : Fin 11008), idx = ix2 r' n' := ⟨idx 0, idx 1, eq_ix2 idx⟩
      exact step_first m c _ h (by omega) _ r' n')
    (fun p h acc idx hlo hhi => by
      obtain ⟨r', n', rfl⟩ : ∃ (r' : Fin 128) (n' : Fin 11008), idx = ix2 r' n' := ⟨idx 0, idx 1, eq_ix2 idx⟩
      exact step_later m c p h (by omega) acc r' n')
    (t.val % 8) (by omega) _ (ix2 r n)]
  rw [zero_add]
  refine Finset.sum_congr rfl fun s hs => ?_
  have hs' : s < t.val % 8 + 1 := Finset.mem_range.mp hs
  show tileTerm _ _ _ _ ((8 * (t.val / 8) + s) / 8) ((8 * (t.val / 8) + s) % 8) r n = _
  rw [show (8 * (t.val / 8) + s) / 8 = t.val / 8 by omega, show (8 * (t.val / 8) + s) % 8 = s by omega]

end Cert.Int4Linear.Accum

end
-- ==== Proof.OutBlocks.lean ====
/-
  The result window: which entries of the 4096 × 11008 result a grid point's block holds, that the eight-th point of
  every row tile writes its block back and that those blocks cover the result, what reading an array through a block
  gives at an entry, and the bias vector as the one-row matrix the launch finds it reshaped to.
-/
import proofs.«424205_j73778948211032_1_alg».proof.Proof.Blocks

set_option maxRecDepth 16384

noncomputable section

namespace Cert.Int4Linear.Blocks

open Idealize.ShloMosaic Idealize.ShloMosaic.TcCoe Idealize.ShloMosaic.ValueIdx
open Idealize.SL Idealize.SL.Sem
open Cert.KernelIdeal Cert.KernelIdeal.Gen Cert.Int4Linear.Pieces

variable {F : FTy → Type} [FloatOps F]
variable (m : (ℓ : Loc nD τ sig) → Buf (Elt F) ℓ)

/-- Entry `i` of the result is in point `t`'s block iff, on each axis, its coordinate lies in the block's range there:
    from (block index) · (block extent) up to, not including, one block extent further. The block is a unit-stride
    rectangle of the whole result array. -/
theorem mem_outBlk_axes (t : Fin cfg0.N) (i : S4096x11008.Idx) :
    i ∈ ((cfg0.win 5).blk t).view.set ↔
      ∀ a : Fin 2, win0_5.index t a * S128x11008.size a ≤ (i a).val
        ∧ (i a).val < win0_5.index t a * S128x11008.size a + S128x11008.size a := by
  show i ∈ ((View.whole main_v1).slice (win0_5.rect t)).set ↔ _
  rw [View.set_slice_whole, Rect.mem_set_unit]
  exact Iff.rfl

/-- Entry `i` of the result is in point `t`'s block iff its row is one of the 128 rows of row tile `t / 8` (the block
    spans every column). -/
theorem mem_outBlk (t : Fin cfg0.N) (i : S4096x11008.Idx) :
    i ∈ ((cfg0.win 5).blk t).view.set ↔ 128 * (t.val / 8) ≤ (i 0).val ∧ (i 0).val < 128 * (t.val / 8) + 128 := by
  -- name the entry's row `r` and column `n`
  obtain ⟨r, n, rfl⟩ : ∃ (r : Fin 4096) (n : Fin 11008), i = ix2 r n := ⟨i 0, i 1, eq_ix2 i⟩
  rw [mem_outBlk_axes]
  show (∀ a : Fin 2, win0_5.index t a * S128x11008.size a ≤ (ix2 r n a).val
      ∧ (ix2 r n a).val < win0_5.index t a * S128x11008.size a + S128x11008.size a)
    ↔ 128 * (t.val / 8) ≤ r.val ∧ r.val < 128 * (t.val / 8) + 128
  have hn : n.val < 11008 := n.isLt
  constructor
  · -- the row axis alone gives the claim: the block index there is `t / 8` and the block has 128 rows
    intro h
    have b0 : win0_5.index t 0 * 128 ≤ r.val ∧ r.val < win0_5.index t 0 * 128 + 128 := h 0
    rw [(index_o t).1] at b0
    omega
  · intro h a
    match a with
    | ⟨0, _⟩ =>
      -- the row axis: the same range, written the other way round
      show win0_5.index t 0 * 128 ≤ r.val ∧ r.val < win0_5.index t 0 * 128 + 128
      rw [(index_o t).1]
      omega
    | ⟨1, _⟩ =>
      -- the column axis: block index 0 and all 11008 columns, so every column is in range
      show win0_5.index t 1 * 11008 ≤ n.val ∧ n.val < win0_5.index t 1 * 11008 + 11008
      rw [(index_o t).2, Nat.zero_mul, Nat.zero_add]
      exact ⟨Nat.zero_le _, hn⟩

/-- Every entry of the result lies in the block of a point that writes its block back: the last reduction point
    `8·(row / 128) + 7` of the entry's row tile. -/
theorem cover_out (i : S4096x11008.Idx) :
    ∃ t : Fin cfg0.N, (cfg0.win 5).flush t = true ∧ i ∈ ((cfg0.win 5).blk t).view.set := by
  have h0 : (i 0).val < 4096 := (i 0).isLt
  have hN : cfg0.N = 256 := N_0
  -- with `q = row / 128 < 32` the point `8·q + 7` is below 256
  refine ⟨⟨8 * ((i 0).val / 128) + 7, by rw [hN]; omega⟩, ?_, ?_⟩
  · -- it is ≡ 7 (mod 8), so it writes its block back
    exact (flush0_5 _).mpr (by show (8 * ((i 0).val / 128) + 7) % 8 = 7; omega)
  · -- its row tile is `(8·q + 7) / 8 = q`, and `128·q ≤ row < 128·q + 128`
    rw [mem_outBlk]
    show 128 * ((8 * ((i 0).val / 128) + 7) / 8) ≤ (i 0).val
      ∧ (i 0).val < 128 * ((8 * ((i 0).val / 128) + 7) / 8) + 128
    omega

/-- An array read through point `t`'s result block, at `(r, n)`: the array at `(128·(t / 8) + r, n)`. -/
theorem outBlk_read (G : Vec F S4096x11008 .f32) (t : Fin cfg0.N) (r : Fin 128) (n : Fin 11008) :
    (((cfg0.win 5).blk t).view.read (Elt F) G : Vec F S128x11008 .f32) (ix2 r n)
      = G (ix2 (⟨128 * (t.val / 8) + r.val, by have := lt_N t; have := r.isLt; omega⟩ : Fin 4096) n) := by
  -- reading through the block reads the array at the block's embedding of the local index:
  -- on each axis (block index) · (block extent) + the local coordinate
  rw [View.read_apply]
  show G _ = G _
  congr 1
  funext a
  apply Fin.ext
  match a with
  | ⟨0, _⟩ => show win0_5.index t 0 * 128 + 1 * r.val = 128 * (t.val / 8) + r.val; rw [(index_o t).1]; omega
  | ⟨1, _⟩ => show win0_5.index t 1 * 11008 + 1 * n.val = n.val; rw [(index_o t).2]; omega

/-- The one-row bias matrix the launch finds, at `(0, n)`: the bias vector at `n` (the host reshaped it before the launch). -/
theorem biasRow_apply (c : Dev nD) (n : Fin 11008) :
    biasRow m c (ix2 (0 : Fin 1) n) = (m ((c : Thread nD τ).loc main_arg4) : Vec F S11008 .f32) (ix1 n) := by
  -- the one host operation before the launch wrote the reshaped bias vector into the matrix's array
  have e : (V m c main_v0 : S1x11008.Idx → _)
      = shapeCast S1x11008 (m ((c : Thread nD τ).loc main_arg4)) shapeCasts_S11008_S1x11008 := by
    dsimp only [Gen.V, Gen.hostOps0]; after_results; rfl
  unfold biasRow
  rw [e]
  -- a reshape keeps the row-major position: entry `(0, n)` of the matrix is at `0·11008 + n = n`, entry `n` of the vector
  refine shapeCast_apply _ shapeCasts_S11008_S1x11008 (ix2 (0 : Fin 1) n) (ix1 n) ?_
  rw [Shape.rowMajor_val_one, Shape.rowMajor_val_two]
  show n.val = 0 * 11008 + n.val
  rw [Nat.zero_mul, Nat.zero_add]

end Cert.Int4Linear.Blocks

end
-- ==== Proof.Final.lean ====
/-
  The kernel's result array is the layer.

  Only the last reduction point of a row tile (t % 8 = 7) writes its block back. There the body stores the updated
  accumulator plus the bias row: at (r, n) that is the partial sums of tiles 0 … 6 left by the point before, plus tile
  7's, plus the bias at n — the eight tiles together are the whole reduction, so the block is the layer's rows
  128·(t / 8) + r. Those 32 blocks cover the result array.
-/
import proofs.«424205_j73778948211032_1_alg».proof.Proof.Accum
import proofs.«424205_j73778948211032_1_alg».proof.Proof.OutBlocks

set_option maxRecDepth 16384

noncomputable section

open scoped BigOperators

namespace Cert.Int4Linear.Final

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Value
open Cert.Int4Linear Cert.Int4Linear.Pieces Cert.Int4Linear.Blocks Cert.Int4Linear.Accum

variable (m : (ℓ : Loc nD τ sig) → Buf (Elt Ideal) ℓ) (ρ : Dev nD → PrngReg)

/-- The layer of the five argument arrays as launched. -/
abbrev result (c : Dev nD) : Buf (Elt Ideal) ((c : Thread nD τ).loc main_v1) :=
  layer (m ((c : Thread nD τ).loc main_arg0)) (m ((c : Thread nD τ).loc main_arg1)) (m ((c : Thread nD τ).loc main_arg2))
    (m ((c : Thread nD τ).loc main_arg3)) (m ((c : Thread nD τ).loc main_arg4))

/-- The launch finds the four staged arguments as launched. -/
theorem actArr_eq (c : Dev nD) : actArr m c = m ((c : Thread nD τ).loc main_arg0) := V_main_arg0 m c
theorem packedArr_eq (c : Dev nD) : packedArr m c = m ((c : Thread nD τ).loc main_arg1) := V_main_arg1 m c
theorem scaleArr_eq (c : Dev nD) : scaleArr m c = m ((c : Thread nD τ).loc main_arg2) := V_main_arg2 m c
theorem zeroArr_eq (c : Dev nD) : zeroArr m c = m ((c : Thread nD τ).loc main_arg3) := V_main_arg3 m c

/-- WHAT A FLUSHING POINT WRITES BACK is its block of the layer. -/
theorem flushed_eq (c : Dev nD) (t : Fin cfg0.N) (hf : (cfg0.win 5).flush t = true) :
    (dats m 0 c).flushed 5 t = ((cfg0.win 5).blk t).view.read (Elt Ideal) (result m c) := by
  have ht := lt_N t
  have hN : cfg0.N = 256 := N_0
  have h1 : t.val % 8 = 7 := (flush0_5 t).mp hf
  have h0 : ¬t.val % 8 = 0 := by omega
  rw [flushed5_C m c t h0 h1]
  rw [out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2]
  funext y
  obtain ⟨r, n, rfl⟩ : ∃ (r : Fin 128) (n : Fin 11008), y = ix2 r n := ⟨y 0, y 1, eq_ix2 y⟩
  refine Eq.trans (b := k0_pay1 (F := Ideal) (k0_pay3 (packedBlk m c t) (groupRows (grid0.coords t) (scaleBlk m c t))
      (groupRows (grid0.coords t) (zeroBlk m c t)) (actBlk m c t) (outsAt0 m c (t.val - 1) (Nat.lt_of_le_of_lt (Nat.sub_le _ _) t.isLt)).2) (biasBlk m c t) (ix2 r n)) rfl ?_
  -- the stored value at (r, n): what the point before left, plus tile 7's partial sum, plus the bias at n
  rw [Tile.emit_apply, update_point m c t _ r n, biasBlk_apply, biasRow_apply, outBlk_read (F := Ideal) (result m c) t r n]
  have hprev := scratch_after m c ⟨t.val - 1, by omega⟩ r n
  dsimp only at hprev
  rw [hprev, show (t.val - 1) % 8 + 1 = 7 by omega, show (t.val - 1) / 8 = t.val / 8 by omega]
  unfold addend
  rw [h1, ← Finset.sum_range_succ (fun s => tileTerm (actArr m c) (packedArr m c) (scaleArr m c) (zeroArr m c) (t.val / 8) s r n) 7]
  -- the eight tiles are the whole reduction
  rw [sum_tileTerm _ _ _ _ (t.val / 8) (by omega) r n, actArr_eq, packedArr_eq, scaleArr_eq, zeroArr_eq]
  rfl

/-- THE RESULT ARRAY after the run is the layer: every entry lies in the block of its row tile's last point. -/
theorem final_out (c : Dev nD) : (dats m 0 c).arrAt 5 cfg0.N = result m c :=
  (dats m 0 c).arrAt_eq_of_cover 5 (result m c) (flushed_eq m c) cover_out

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_out m c), (h c).2⟩) (run_blocks m ρ)

end Cert.Int4Linear.Final

end
-- ==== Proof.lean ====
/-
  An int4-quantised linear layer: a fused unpack–dequantise–matmul kernel against its plain reference, equal over the
  extended reals.

  Both programs compute, at entry (r, n) of the 4096 × 11008 result,
      Σ_{j < 4096} x(r, j) · w(j, n) + bias(n),     w(j, n) = (nibble_j(P(j / 2, n)) − zero(j / 128, n)) · scale(j / 128, n),
  where nibble_j of a packed 32-bit word is its bits 0–3 for even j and its bits 4–7 for odd j, read as an integer.

  The reference does it in one piece: it interleaves the two nibble planes into the 4096-row weight matrix, dequantises
  it group by group and takes one matrix product. The kernel walks a 32 × 8 grid of row tiles by reduction tiles; at
  each point it unpacks and dequantises the 512 weight rows of the reduction tile, multiplies the 128 × 512 activation
  block into them and adds the product to a 128 × 11008 accumulator that it zeroes at the first reduction tile of a row
  tile; at the last one it writes accumulator plus bias to the result block. Read exactly, a change of float format is
  the identity, so the kernel's result is the same reduction cut into eight partial sums of 512 terms. Addition of
  extended reals is commutative and associative, which is all the regrouping uses: no input needs to be finite.

  The proof in steps. The layer is written down once, with the law that a sum over 4096 indices is the sum over
  8 tiles of the sums over 512 (Spec). The reference's last stage is the layer, entry by entry (RefLayer). The body's
  three stored values are read at an entry: zero; the accumulator plus the tile's partial sum; the accumulator plus the
  bias (TilePayload), and each control case of the body leaves those values of the point's blocks (Pieces), the blocks
  being read in the arrays' own coordinates (Blocks, OutBlocks). By induction along a row tile's eight points the
  accumulator after point t holds the partial sums of tiles 0 … t % 8 (Accum); at t % 8 = 7 the block written back is
  the layer's 128 rows of that row tile, and the 32 such blocks cover the result (Final). The kernel read exactly is the
  kernel's own text (no operation was rewritten), so that conjunct is `True`; the three frames are the generated frame
  theorems and the reference's generated run.
-/
import proofs.«424205_j73778948211032_1_alg».proof.Defs
import proofs.«424205_j73778948211032_1_alg».proof.Proof.Gen.Kernel
import proofs.«424205_j73778948211032_1_alg».proof.Proof.Gen.Kernel.Skeleton
import proofs.«424205_j73778948211032_1_alg».proof.Proof.Gen.Kernel.Launch
import proofs.«424205_j73778948211032_1_alg».proof.Proof.Gen.Kernel.Points
import proofs.«424205_j73778948211032_1_alg».proof.Proof.Gen.Kernel.Frame
import proofs.«424205_j73778948211032_1_alg».proof.Proof.Gen.KernelIdeal
import proofs.«424205_j73778948211032_1_alg».proof.Proof.Gen.KernelIdeal.Skeleton
import proofs.«424205_j73778948211032_1_alg».proof.Proof.Gen.KernelIdeal.Launch
import proofs.«424205_j73778948211032_1_alg».proof.Proof.Gen.KernelIdeal.Points
import proofs.«424205_j73778948211032_1_alg».proof.Proof.Gen.KernelIdeal.Frame
import proofs.«424205_j73778948211032_1_alg».proof.Proof.Gen.ReferenceIdeal
import proofs.«424205_j73778948211032_1_alg».proof.Proof.Gen.Pre_finite_inputs
import proofs.«424205_j73778948211032_1_alg».proof.Proof.Gen.KernelIdeal.Value
import proofs.«424205_j73778948211032_1_alg».proof.Proof.Gen.ReferenceIdeal.Run
import proofs.«424205_j73778948211032_1_alg».proof.Proof.Gen.ReferenceIdeal.Read
import proofs.«424205_j73778948211032_1_alg».proof.Proof.RefLayer
import proofs.«424205_j73778948211032_1_alg».proof.Proof.Final
import Idealize.ShloMosaic.Adequacy
import Idealize.ShloMosaic.Init

noncomputable section

namespace Cert.Proof

open Idealize.ShloMosaic Idealize.ShloMosaic.TcCoe Idealize.SL.Sem

/-- The kernel as printed runs, and leaves its arguments alone. -/
theorem frame_kernel [Cert.Kernel.Facts] [Cert.Pre_finite_inputs.Facts] : Cert.frame_Kernel :=
  fun m ρ _ => Cert.Kernel.Gen.frame m ρ

/-- So does the kernel read exactly. -/
theorem frame_kernelIdeal [Cert.KernelIdeal.Facts] [Cert.Pre_finite_inputs.Facts] : Cert.frame_KernelIdeal :=
  fun m ρ _ => Cert.KernelIdeal.Gen.frame m ρ

/-- The reference runs too: its run with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the five arguments both programs end with the layer of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Int4Linear.Final.result m c, Cert.Int4Linear.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Int4Linear.Ref.ref_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
